-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x256 : Shape := ⟨2, ![256, 256]⟩
abbrev S256 : Shape := ⟨1, ![256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S4x4096x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S4x4096x256 : Shape := ⟨3, ![4, 4096, 256]⟩
abbrev S256x256 : Shape := ⟨2, ![256, 256]⟩
abbrev S256 : Shape := ⟨1, ![256]⟩
abbrev S1x256 : Shape := ⟨2, ![1, 256]⟩
abbrev S1x4096x256 : Shape := ⟨3, ![1, 4096, 256]⟩
abbrev S1x256x256 : Shape := ⟨3, ![1, 256, 256]⟩
abbrev S4096x256 : Shape := ⟨2, ![4096, 256]⟩
abbrev S256x4096 : Shape := ⟨2, ![256, 4096]⟩
abbrev S256x1 : Shape := ⟨2, ![256, 1]⟩

abbrev nBuf : Space → Nat
  | .hbm => 15
  | .vmem => 12
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S4x4096x256, .bf16⟩
  | .hbm, ⟨8, _⟩ => ⟨S256x256, .bf16⟩
  | .hbm, ⟨9, _⟩ => ⟨S256x256, .bf16⟩
  | .hbm, ⟨10, _⟩ => ⟨S256x256, .bf16⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S4x4096x256, .f32⟩
  | .local _ .vmem, ⟨0, _⟩ => ⟨S1x4096x256, .bf16⟩
  | .local _ .vmem, ⟨1, _⟩ => ⟨S1x4096x256, .bf16⟩
  | .local _ .vmem, ⟨2, _⟩ => ⟨S256x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S1x256x256, .f32⟩
  | .local _ .vmem, ⟨9, _⟩ => ⟨S1x256x256, .f32⟩
  | .local _ .vmem, ⟨10, _⟩ => ⟨S4096x256, .bf16⟩
  | .local _ .vmem, ⟨11, _⟩ => ⟨S4096x256, .bf16⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  shapeCasts_S256_S1x256 : S256.ShapeCasts S1x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  h_S1x256x256 : 0 < S1x256x256.numel
  shapeCasts_S1x256x256_S256x256 : S1x256x256.ShapeCasts S256x256
  broadcasts_S1x256_S256x256 : S1x256.Broadcasts S256x256
  reduces_S256x4096_S256 : S256x4096.Reduces [1] S256
  shapeCasts_S256_S256x1 : S256.ShapeCasts S256x1
  broadcasts_S256x1_S256x4096 : S256x1.Broadcasts S256x4096
  broadcasts_S256x1_S256x256 : S256x1.Broadcasts S256x256
  inb_S1x256x256_S1x256x256_0_0_0 : ∀ a, (![0, 0, 0] : Fin 3 → Nat) a + S1x256x256.size a ≤ S1x256x256.size a
  shapeCasts_S256x256_S1x256x256 : S256x256.ShapeCasts S1x256x256
  dot_S4096x256_S256x256_S4096x256_1_0_0_1_n_n_wf : DotDims.WF S4096x256 S256x256 S4096x256 [1] [0] [0] [1] [] []
  dot_S256x256_S256x256_S256x256_1_0_0_1_n_n_wf : DotDims.WF S256x256 S256x256 S256x256 [1] [0] [0] [1] [] []
  dot_S256x256_S4096x256_S256x4096_1_1_0_0_n_n_wf : DotDims.WF S256x256 S4096x256 S256x4096 [1] [1] [0] [0] [] []
  dot_S256x4096_S4096x256_S256x256_1_0_0_1_n_n_wf : DotDims.WF S256x4096 S4096x256 S256x256 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x256.size a ≤ S1x4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S4x4096x256.size a
  hwx0_0 : ∀ i : grid0.Coords, EltTy.bits .bf16 = 32 ∨ (Rect.block (s := S4x4096x256) S1x4096x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x256.size a ≤ S4x4096x256.size a
  hwx0_7 : ∀ i : grid0.Coords, EltTy.bits .f32 = 32 ∨ (Rect.block (s := S4x4096x256) S1x256x256.size (cc0_transform_7 i) (hinb0_7 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_v0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x256x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x4096x256 : Shape := ⟨3, ![4, 4096, 256]⟩
abbrev S256x256 : Shape := ⟨2, ![256, 256]⟩
abbrev S256 : Shape := ⟨1, ![256]⟩
abbrev S1x1x256 : Shape := ⟨3, ![1, 1, 256]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S4x4096x256, .f32⟩
  | .hbm, ⟨8, _⟩ => ⟨S1x1x256, .f32⟩
  | .hbm, ⟨9, _⟩ => ⟨S4x4096x256, .f32⟩
  | .hbm, ⟨10, _⟩ => ⟨S4x4096x256, .f32⟩
  | .hbm, ⟨11, _⟩ => ⟨S4x4096x256, .f32⟩
  | .hbm, ⟨12, _⟩ => ⟨S1x1x256, .f32⟩
  | .hbm, ⟨13, _⟩ => ⟨S4x4096x256, .f32⟩
  | .hbm, ⟨14, _⟩ => ⟨S4x4096x256, .f32⟩
  | .hbm, ⟨15, _⟩ => ⟨S4x4096x256, .f32⟩
  | .hbm, ⟨16, _⟩ => ⟨S1x1x256, .f32⟩
  | .hbm, ⟨17, _⟩ => ⟨S4x4096x256, .f32⟩
  | .hbm, ⟨18, _⟩ => ⟨S4x4096x256, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S4x4096x1, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S_, .f32⟩
  | .hbm, ⟨30, _⟩ => ⟨S4x4096, .f32⟩
  | .hbm, ⟨31, _⟩ => ⟨S4x4096x1, .f32⟩
  | .hbm, ⟨32, _⟩ => ⟨S4x4096x4096, .f32⟩
  | .hbm, ⟨33, _⟩ => ⟨S4x4096x4096, .f32⟩
  | .hbm, ⟨34, _⟩ => ⟨S4x4096x256, .f32⟩
  | .hbm, ⟨35, _⟩ => ⟨S4x4096x256, .f32⟩
  | .hbm, ⟨36, _⟩ => ⟨S4x4096x256, .f32⟩
  | .hbm, ⟨37, _⟩ => ⟨S_, .f32⟩
  | .hbm, ⟨38, _⟩ => ⟨S4x4096x256, .f32⟩
  | .hbm, ⟨39, _⟩ => ⟨S4x4096x256, .f32⟩
  | .hbm, ⟨40, _⟩ => ⟨S_, .f32⟩
  | .hbm, ⟨41, _⟩ => ⟨S4x4096x256, .f32⟩
  | .hbm, ⟨42, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S_S4x4096x256 : S_.BroadcastsInDim S4x4096x256 (![] : Fin 0 → Fin S4x4096x256.rank)
  dot_S4x4096x256_S256x256_S4x4096x256_2_0_01_1_n_n_wf : DotDims.WF S4x4096x256 S256x256 S4x4096x256 [2] [0] [0, 1] [1] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_0_01_1_n_n : DotDims S4x4096x256 S256x256 S4x4096x256 where
  lhsContracting := [2]
  rhsContracting := [0]
  lhsNonContracting := [0, 1]
  rhsNonContracting := [1]
  lhsBatch := []
  rhsBatch := []
  wf := dot_S4x4096x256_S256x256_S4x4096x256_2_0_01_1_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.Pieces.lean ====
/-
  What one grid point of the attention kernel leaves behind, as values.

  A grid point is a pair (batch, query tile). The body keeps two scratch arrays across the points of a batch: the
  keys `K = x·Wk + bk` and the values `V = x·Wv + bv` of the whole batch, 4096 rows each. At the first query tile of a
  batch it computes both from the batch's block of `x` and stores them; at the other fifteen it finds them as the point
  before left them. At every point it then takes the 256 rows of the block that belong to the tile, forms the queries,
  the scores against all 4096 keys, the row maxima, the exponentials and their row sums, multiplies by the values,
  divides by the row sums and applies the logistic function; the result is the tile's output block.

  Each lemma below reads one of these stores back as the body's arithmetic applied to the blocks the point was given.
-/
import proofs.«408459_j4329327034632_3_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 256 rows of the batch's block of `x` that belong to the query tile of grid point `i`: rows
    `256·i₁ … 256·i₁ + 255`. -/
def qtile (i : grid0.Coords) (x0 : Vec F S1x4096x256 .bf16) : Vec F S1x256x256 .bf16 :=
  View.ld x0 (Rect.unit (s := S1x4096x256) (k0_off1 i) S1x256x256.size (k0_off1_inb i))

/-- At a batch's first query tile the key scratch ends holding `x·Wk + bk` of the batch's block. -/
theorem keys_first (c : Dev nD) (i : grid0.Coords) (arg2 : Memref sig .tc .vmem S1x4096x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1x256x256 .f32) (harg9 : arg9.IsWhole) (arg10 : Memref sig .tc .vmem S4096x256 .bf16) (harg10 : arg10.IsWhole) (arg11 : Memref sig .tc .vmem S4096x256 .bf16) (harg11 : arg11.IsWhole) (hc0 : cond0_0 i) (x0 : Vec F S1x4096x256 .bf16) (x1 : Vec F S256x256 .bf16) (x2 : Vec F S1x256 .f32) (x3 : Vec F S256x256 .bf16) (x4 : Vec F S1x256 .f32) (x5 : Vec F S256x256 .bf16) (x6 : Vec F S1x256 .f32) :
    sout0_A_0 c i arg2 harg2 arg3 harg3 arg4 harg4 arg5 harg5 arg6 harg6 arg7 harg7 arg8 harg8 arg9 harg9 arg10 harg10 arg11 harg11 hc0 x0 x1 x2 x3 x4 x5 x6 = k0_pay3 x0 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, harg11.read_unread, View.ld_unit_zero (S := S1x4096x256) hz3, View.ld_unit_zero (S := S256x256) hz2, View.ld_unit_zero (S := S1x256) hz2, View.ld_unit_zero (S := S4096x256) hz2, View.readCov_unit_zero (S := S4096x256) _ hz2]

/-- At a batch's first query tile the value scratch ends holding `x·Wv + bv` of the batch's block. -/
theorem vals_first (c : Dev nD) (i : grid0.Coords) (arg2 : Memref sig .tc .vmem S1x4096x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1x256x256 .f32) (harg9 : arg9.IsWhole) (arg10 : Memref sig .tc .vmem S4096x256 .bf16) (harg10 : arg10.IsWhole) (arg11 : Memref sig .tc .vmem S4096x256 .bf16) (harg11 : arg11.IsWhole) (hc0 : cond0_0 i) (x0 : Vec F S1x4096x256 .bf16) (x1 : Vec F S256x256 .bf16) (x2 : Vec F S1x256 .f32) (x3 : Vec F S256x256 .bf16) (x4 : Vec F S1x256 .f32) (x5 : Vec F S256x256 .bf16) (x6 : Vec F S1x256 .f32) :
    sout0_A_1 c i arg2 harg2 arg3 harg3 arg4 harg4 arg5 harg5 arg6 harg6 arg7 harg7 arg8 harg8 arg9 harg9 arg10 harg10 arg11 harg11 hc0 x0 x1 x2 x3 x4 x5 x6 = k0_pay4 x0 x5 x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, harg11.read_unread, View.ld_unit_zero (S := S1x4096x256) hz3, View.ld_unit_zero (S := S256x256) hz2, View.ld_unit_zero (S := S1x256) hz2, View.ld_unit_zero (S := S4096x256) hz2, View.readCov_unit_zero (S := S4096x256) _ hz2]

/-- The output block at a batch's first query tile: the tile's attention against the keys and values just stored. -/
theorem out_first (c : Dev nD) (i : grid0.Coords) (arg2 : Memref sig .tc .vmem S1x4096x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1x256x256 .f32) (harg9 : arg9.IsWhole) (arg10 : Memref sig .tc .vmem S4096x256 .bf16) (harg10 : arg10.IsWhole) (arg11 : Memref sig .tc .vmem S4096x256 .bf16) (harg11 : arg11.IsWhole) (hc0 : cond0_0 i) (x0 : Vec F S1x4096x256 .bf16) (x1 : Vec F S256x256 .bf16) (x2 : Vec F S1x256 .f32) (x3 : Vec F S256x256 .bf16) (x4 : Vec F S1x256 .f32) (x5 : Vec F S256x256 .bf16) (x6 : Vec F S1x256 .f32) :
    out0_A_7 c i arg2 harg2 arg3 harg3 arg4 harg4 arg5 harg5 arg6 harg6 arg7 harg7 arg8 harg8 arg9 harg9 arg10 harg10 arg11 harg11 hc0 x0 x1 x2 x3 x4 x5 x6
      = k0_pay1 (k0_pay5 (qtile i x0) x1 x2 (k0_pay3 x0 x3 x4) (k0_pay4 x0 x5 x6)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero (S := S1x256x256) hz3]
  simp only [View.readAt_eq_ld, harg2.read_unread, harg3.read_unread, harg4.read_unread, harg5.read_unread, harg6.read_unread, harg7.read_unread, harg8.read_unread, harg10.read_unread, harg11.read_unread, View.ld_unit_zero (S := S1x4096x256) hz3, View.ld_unit_zero (S := S256x256) hz2, View.ld_unit_zero (S := S1x256) hz2, View.ld_unit_zero (S := S4096x256) hz2, View.readCov_unit_zero (S := S4096x256) _ hz2]
  rfl

/-- The output block at any other query tile: the tile's attention against the keys and values the scratch carries. -/
theorem out_later (c : Dev nD) (i : grid0.Coords) (arg2 : Memref sig .tc .vmem S1x4096x256 .bf16) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S1x256 .f32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1x256x256 .f32) (harg9 : arg9.IsWhole) (arg10 : Memref sig .tc .vmem S4096x256 .bf16) (harg10 : arg10.IsWhole) (arg11 : Memref sig .tc .vmem S4096x256 .bf16) (harg11 : arg11.IsWhole) (hc0 : ¬cond0_0 i) (x0 : Vec F S1x4096x256 .bf16) (x1 : Vec F S256x256 .bf16) (x2 : Vec F S1x256 .f32) (x3 : Vec F S256x256 .bf16) (x4 : Vec F S1x256 .f32) (x5 : Vec F S256x256 .bf16) (x6 : Vec F S1x256 .f32) (xs0 : Vec F S4096x256 .bf16) (xs1 : Vec F S4096x256 .bf16) :
    out0_B_7 c i arg2 harg2 arg3 harg3 arg4 harg4 arg5 harg5 arg6 harg6 arg7 harg7 arg8 harg8 arg9 harg9 arg10 harg10 arg11 harg11 hc0 x0 x1 x2 x3 x4 x5 x6 xs0 xs1 = k0_pay1 (k0_pay5 (qtile i x0) x1 x2 xs0 xs1) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6 xs0 xs1)]
  unfold kernelRun0_B
  dsimp only
  sl_unfold_words
  rw [View.canon_unit_zero (S := S1x256x256) hz3]
  simp only [View.readAt_eq_ld, harg2.read_unread, harg3.read_unread, harg4.read_unread, harg5.read_unread, harg6.read_unread, harg7.read_unread, harg8.read_unread, harg10.read_unread, harg11.read_unread, View.ld_unit_zero (S := S1x4096x256) hz3, View.ld_unit_zero (S := S256x256) hz2, View.ld_unit_zero (S := S1x256) hz2, View.ld_unit_zero (S := S4096x256) hz2, View.readCov_unit_zero (S := S4096x256) _ hz2]
  rfl

end Cert.KernelIdeal.Pieces

end
-- ==== Proof.Blocks.lean ====
/-
  The blocks a grid point is given, read off the arrays.

  Grid point `t` of the 4 × 16 grid is batch `t / 16`, query tile `t % 16`. The block of `x` staged at `t` is the whole
  batch `t / 16` (4096 rows); the three weight matrices and the three biases are staged whole at every point; the
  output block at `t` is rows `256·(t % 16) … + 255` of batch `t / 16`. Before the grid runs, the host has left in the
  staged arrays the inputs themselves, converted to a narrower float format (the identity on extended reals) or
  given a leading unit axis.
-/
import proofs.«408459_j4329327034632_3_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

theorem idx0 : ∀ t : Fin cfg0.N, win0_0.index t 0 = t.val / 16 ∧ win0_0.index t 1 = 0 ∧ win0_0.index t 2 = 0 :=
  (by decide +kernel : ∀ t : Fin grid0.N, win0_0.index t 0 = t.val / 16 ∧ win0_0.index t 1 = 0 ∧ win0_0.index t 2 = 0)

theorem idx7 : ∀ t : Fin cfg0.N, win0_7.index t 0 = t.val / 16 ∧ win0_7.index t 1 = t.val % 16 ∧ win0_7.index t 2 = 0 :=
  (by decide +kernel : ∀ t : Fin grid0.N, win0_7.index t 0 = t.val / 16 ∧ win0_7.index t 1 = t.val % 16 ∧ win0_7.index t 2 = 0)

/-- The row offset of the query tile inside the batch's block. -/
theorem off1 : ∀ t : Fin cfg0.N, k0_off1 (grid0.coords t) = ![0, 256 * (t.val % 16), 0] :=
  (by decide +kernel : ∀ t : Fin grid0.N, k0_off1 (grid0.coords t) = ![0, 256 * (t.val % 16), 0])

theorem batch_lt (t : Fin cfg0.N) : t.val / 16 < 4 := by
  have h : cfg0.N = 64 := N_0
  have := t.isLt; omega

/-- The batch of grid point `t`. -/
abbrev batch (t : Fin cfg0.N) : Fin 4 := ⟨t.val / 16, batch_lt t⟩

/-- Window 0's block at `t` is batch `t / 16` of its array. -/
theorem xblk_apply (c : Dev nD) (t : Fin cfg0.N) (y : S1x4096x256.Idx) :
    (iblk m c 0 t : Vec F S1x4096x256 .bf16) y
      = (V m c main_v0 : Vec F S4x4096x256 .bf16) (ix3 (batch t) (y 1) (y 2)) := by
  have hi := idx0 t
  have h0 : (y 0).val < 1 := (y 0).isLt
  unfold iblk
  rw [View.read_apply]
  show (V m c main_v0 : Vec F S4x4096x256 .bf16) (((cfg0.win 0).blk t).view.emb y) = _
  refine congrArg _ (funext fun a => Fin.ext ?_)
  match a with
  | ⟨0, _⟩ => show win0_0.index t 0 * 1 + 1 * (y 0).val = t.val / 16; rw [hi.1]; omega
  | ⟨1, _⟩ => show win0_0.index t 1 * 4096 + 1 * (y 1).val = (y 1).val; rw [hi.2.1]; omega
  | ⟨2, _⟩ => show win0_0.index t 2 * 256 + 1 * (y 2).val = (y 2).val; rw [hi.2.2]; omega

theorem idx1 : ∀ t : Fin cfg0.N, win0_1.index t 0 = 0 ∧ win0_1.index t 1 = 0 :=
  (by decide +kernel : ∀ t : Fin grid0.N, win0_1.index t 0 = 0 ∧ win0_1.index t 1 = 0)

/-- Window 1's block is its whole array at every grid point. -/
theorem blk1 (c : Dev nD) (t : Fin cfg0.N) : (iblk m c 1 t : Vec F S256x256 .bf16) = V m c main_v1 := by
  funext y
  have hi := idx1 t
  unfold iblk
  rw [View.read_apply]
  show (V m c main_v1 : Vec F S256x256 .bf16) (((cfg0.win 1).blk t).view.emb y) = _
  refine congrArg _ (funext fun a => Fin.ext ?_)
  match a with
  | ⟨0, _⟩ => show win0_1.index t 0 * 256 + 1 * (y 0).val = (y 0).val; rw [hi.1]; omega
  | ⟨1, _⟩ => show win0_1.index t 1 * 256 + 1 * (y 1).val = (y 1).val; rw [hi.2]; omega

theorem idx2 : ∀ t : Fin cfg0.N, win0_2.index t 0 = 0 ∧ win0_2.index t 1 = 0 :=
  (by decide +kernel : ∀ t : Fin grid0.N, win0_2.index t 0 = 0 ∧ win0_2.index t 1 = 0)

/-- Window 2's block is its whole array at every grid point. -/
theorem blk2 (c : Dev nD) (t : Fin cfg0.N) : (iblk m c 2 t : Vec F S1x256 .f32) = V m c main_v4 := by
  funext y
  have hi := idx2 t
  unfold iblk
  rw [View.read_apply]
  show (V m c main_v4 : Vec F S1x256 .f32) (((cfg0.win 2).blk t).view.emb y) = _
  refine congrArg _ (funext fun a => Fin.ext ?_)
  match a with
  | ⟨0, _⟩ => show win0_2.index t 0 * 1 + 1 * (y 0).val = (y 0).val; rw [hi.1]; omega
  | ⟨1, _⟩ => show win0_2.index t 1 * 256 + 1 * (y 1).val = (y 1).val; rw [hi.2]; omega

theorem idx3 : ∀ t : Fin cfg0.N, win0_3.index t 0 = 0 ∧ win0_3.index t 1 = 0 :=
  (by decide +kernel : ∀ t : Fin grid0.N, win0_3.index t 0 = 0 ∧ win0_3.index t 1 = 0)

/-- Window 3's block is its whole array at every grid point. -/
theorem blk3 (c : Dev nD) (t : Fin cfg0.N) : (iblk m c 3 t : Vec F S256x256 .bf16) = V m c main_v2 := by
  funext y
  have hi := idx3 t
  unfold iblk
  rw [View.read_apply]
  show (V m c main_v2 : Vec F S256x256 .bf16) (((cfg0.win 3).blk t).view.emb y) = _
  refine congrArg _ (funext fun a => Fin.ext ?_)
  match a with
  | ⟨0, _⟩ => show win0_3.index t 0 * 256 + 1 * (y 0).val = (y 0).val; rw [hi.1]; omega
  | ⟨1, _⟩ => show win0_3.index t 1 * 256 + 1 * (y 1).val = (y 1).val; rw [hi.2]; omega

theorem idx4 : ∀ t : Fin cfg0.N, win0_4.index t 0 = 0 ∧ win0_4.index t 1 = 0 :=
  (by decide +kernel : ∀ t : Fin grid0.N, win0_4.index t 0 = 0 ∧ win0_4.index t 1 = 0)

/-- Window 4's block is its whole array at every grid point. -/
theorem blk4 (c : Dev nD) (t : Fin cfg0.N) : (iblk m c 4 t : Vec F S1x256 .f32) = V m c main_v5 := by
  funext y
  have hi := idx4 t
  unfold iblk
  rw [View.read_apply]
  show (V m c main_v5 : Vec F S1x256 .f32) (((cfg0.win 4).blk t).view.emb y) = _
  refine congrArg _ (funext fun a => Fin.ext ?_)
  match a with
  | ⟨0, _⟩ => show win0_4.index t 0 * 1 + 1 * (y 0).val = (y 0).val; rw [hi.1]; omega
  | ⟨1, _⟩ => show win0_4.index t 1 * 256 + 1 * (y 1).val = (y 1).val; rw [hi.2]; omega

theorem idx5 : ∀ t : Fin cfg0.N, win0_5.index t 0 = 0 ∧ win0_5.index t 1 = 0 :=
  (by decide +kernel : ∀ t : Fin grid0.N, win0_5.index t 0 = 0 ∧ win0_5.index t 1 = 0)

/-- Window 5's block is its whole array at every grid point. -/
theorem blk5 (c : Dev nD) (t : Fin cfg0.N) : (iblk m c 5 t : Vec F S256x256 .bf16) = V m c main_v3 := by
  funext y
  have hi := idx5 t
  unfold iblk
  rw [View.read_apply]
  show (V m c main_v3 : Vec F S256x256 .bf16) (((cfg0.win 5).blk t).view.emb y) = _
  refine congrArg _ (funext fun a => Fin.ext ?_)
  match a with
  | ⟨0, _⟩ => show win0_5.index t 0 * 256 + 1 * (y 0).val = (y 0).val; rw [hi.1]; omega
  | ⟨1, _⟩ => show win0_5.index t 1 * 256 + 1 * (y 1).val = (y 1).val; rw [hi.2]; omega

theorem idx6 : ∀ t : Fin cfg0.N, win0_6.index t 0 = 0 ∧ win0_6.index t 1 = 0 :=
  (by decide +kernel : ∀ t : Fin grid0.N, win0_6.index t 0 = 0 ∧ win0_6.index t 1 = 0)

/-- Window 6's block is its whole array at every grid point. -/
theorem blk6 (c : Dev nD) (t : Fin cfg0.N) : (iblk m c 6 t : Vec F S1x256 .f32) = V m c main_v6 := by
  funext y
  have hi := idx6 t
  unfold iblk
  rw [View.read_apply]
  show (V m c main_v6 : Vec F S1x256 .f32) (((cfg0.win 6).blk t).view.emb y) = _
  refine congrArg _ (funext fun a => Fin.ext ?_)
  match a with
  | ⟨0, _⟩ => show win0_6.index t 0 * 1 + 1 * (y 0).val = (y 0).val; rw [hi.1]; omega
  | ⟨1, _⟩ => show win0_6.index t 1 * 256 + 1 * (y 1).val = (y 1).val; rw [hi.2]; omega

/-! ## What the host left in the staged arrays -/

theorem v0_eq (c : Dev nD) : (V m c main_v0 : Vec F S4x4096x256 .bf16)
    = truncf .bf16 (m ((c : Thread nD τ).loc main_arg0) : Vec F S4x4096x256 .f32) bitsLt_bf16_f32 := by
  dsimp only [Gen.V, Gen.hostOps0]; after_results
theorem v1_eq (c : Dev nD) : (V m c main_v1 : Vec F S256x256 .bf16)
    = truncf .bf16 (m ((c : Thread nD τ).loc main_arg1) : Vec F S256x256 .f32) bitsLt_bf16_f32 := by
  dsimp only [Gen.V, Gen.hostOps0]; after_results
theorem v2_eq (c : Dev nD) : (V m c main_v2 : Vec F S256x256 .bf16)
    = truncf .bf16 (m ((c : Thread nD τ).loc main_arg3) : Vec F S256x256 .f32) bitsLt_bf16_f32 := by
  dsimp only [Gen.V, Gen.hostOps0]; after_results
theorem v3_eq (c : Dev nD) : (V m c main_v3 : Vec F S256x256 .bf16)
    = truncf .bf16 (m ((c : Thread nD τ).loc main_arg5) : Vec F S256x256 .f32) bitsLt_bf16_f32 := by
  dsimp only [Gen.V, Gen.hostOps0]; after_results
theorem v4_eq (c : Dev nD) : (V m c main_v4 : Vec F S1x256 .f32)
    = shapeCast S1x256 (m ((c : Thread nD τ).loc main_arg2) : Vec F S256 .f32) shapeCasts_S256_S1x256 := by
  dsimp only [Gen.V, Gen.hostOps0]; after_results; rfl
theorem v5_eq (c : Dev nD) : (V m c main_v5 : Vec F S1x256 .f32)
    = shapeCast S1x256 (m ((c : Thread nD τ).loc main_arg4) : Vec F S256 .f32) shapeCasts_S256_S1x256 := by
  dsimp only [Gen.V, Gen.hostOps0]; after_results; rfl
theorem v6_eq (c : Dev nD) : (V m c main_v6 : Vec F S1x256 .f32)
    = shapeCast S1x256 (m ((c : Thread nD τ).loc main_arg6) : Vec F S256 .f32) shapeCasts_S256_S1x256 := by
  dsimp only [Gen.V, Gen.hostOps0]; after_results; rfl

end Cert.KernelIdeal.Blocks

end
-- ==== Proof.Carried.lean ====
/-
  The keys and values a batch carries from its first query tile to its last.

  Within a batch the sixteen grid points are given the same block of `x`, and the weights never change. The first
  point stores the batch's keys and values; every later point leaves the two scratch arrays as it found them. So after
  ANY point the scratch arrays hold the keys and values of that point's own batch — by induction over the points, the
  step from a point to the next inside a batch being that their blocks of `x` are one array. The output block of a
  point is then the attention of its query tile against exactly those keys and values, whichever of the two cases the
  point falls in.
-/
import proofs.«408459_j4329327034632_3_alg».proof.Proof.Pieces
import proofs.«408459_j4329327034632_3_alg».proof.Proof.Blocks

noncomputable section

namespace Cert.KernelIdeal.Carried

open Cert.KernelIdeal Cert.KernelIdeal.Gen Cert.KernelIdeal.Pieces Cert.KernelIdeal.Blocks
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The block of `x` at a grid point, at its literal type. -/
abbrev xb (c : Dev nD) (t : Fin cfg0.N) : Vec F S1x4096x256 .bf16 := iblk m c 0 t

/-- The staged weight matrices and biases, at their literal types. -/
abbrev wq (c : Dev nD) : Vec F S256x256 .bf16 := V m c main_v1
abbrev bq (c : Dev nD) : Vec F S1x256 .f32 := V m c main_v4
abbrev wk (c : Dev nD) : Vec F S256x256 .bf16 := V m c main_v2
abbrev bk (c : Dev nD) : Vec F S1x256 .f32 := V m c main_v5
abbrev wv (c : Dev nD) : Vec F S256x256 .bf16 := V m c main_v3
abbrev bv (c : Dev nD) : Vec F S1x256 .f32 := V m c main_v6

/-- The keys and the values of the batch whose block of `x` is `X`. -/
abbrev keysOf (c : Dev nD) (X : Vec F S1x4096x256 .bf16) : Vec F S4096x256 .bf16 := k0_pay3 X (wk m c) (bk m c)
abbrev valsOf (c : Dev nD) (X : Vec F S1x4096x256 .bf16) : Vec F S4096x256 .bf16 := k0_pay4 X (wv m c) (bv m c)

/-- Two grid points of one batch are given the same block of `x`. -/
theorem xb_congr (c : Dev nD) (t t' : Fin cfg0.N) (h : t.val / 16 = t'.val / 16) : xb m c t = xb m c t' := by
  funext y
  exact (xblk_apply m c t y).trans ((congrArg (fun b : Fin 4 => (V m c main_v0 : Vec F S4x4096x256 .bf16) (ix3 b (y 1) (y 2)))
    (Fin.ext h)).trans (xblk_apply m c t' y).symm)

/-- After any grid point the scratch arrays hold the keys and the values of the point's batch. -/
theorem carried (c : Dev nD) : ∀ (n : ℕ) (h : n < cfg0.N),
    (outsAt0 m c n h).2.1 = keysOf m c (xb m c ⟨n, h⟩) ∧ (outsAt0 m c n h).2.2 = valsOf m c (xb m c ⟨n, h⟩)
  | 0, h => by
    have t : Fin cfg0.N := ⟨0, h⟩
    rw [outsAt0_A m c ⟨0, h⟩ rfl]
    dsimp only
    refine ⟨(keys_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) _ (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩)).trans ?_,
      (vals_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) _ (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩)).trans ?_⟩
    · rw [blk3 m c ⟨0, h⟩, blk4 m c ⟨0, h⟩]
    · rw [blk5 m c ⟨0, h⟩, blk6 m c ⟨0, h⟩]
  | n + 1, h => by
    have hN : cfg0.N = 64 := N_0
    by_cases h0 : (n + 1) % 16 = 0
    · rw [outsAt0_A m c ⟨n + 1, h⟩ h0]
      dsimp only
      refine ⟨(keys_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩)).trans ?_,
        (vals_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩)).trans ?_⟩
      · rw [blk3 m c ⟨n + 1, h⟩, blk4 m c ⟨n + 1, h⟩]
      · rw [blk5 m c ⟨n + 1, h⟩, blk6 m c ⟨n + 1, h⟩]
    · have ih := carried c n (Nat.lt_of_succ_lt h)
      have hx : xb m c ⟨n, Nat.lt_of_succ_lt h⟩ = xb m c ⟨n + 1, h⟩ :=
        xb_congr m c _ _ (by show n / 16 = (n + 1) / 16; omega)
      rw [outsAt0_B m c ⟨n + 1, h⟩ h0]
      dsimp only
      unfold sout0_B_0 sout0_B_1
      refine ⟨?_, ?_⟩
      · show (outsAt0 m c n _).2.1 = _
        rw [ih.1, hx]
      · show (outsAt0 m c n _).2.2 = _
        rw [ih.2, hx]

/-- The attention of the query tile of point `t` against the keys and values of its batch. -/
abbrev tileOut (c : Dev nD) (t : Fin cfg0.N) : Vec F S1x256x256 .f32 :=
  k0_pay1 (k0_pay5 (qtile (grid0.coords t) (xb m c t)) (wq m c) (bq m c) (keysOf m c (xb m c t)) (valsOf m c (xb m c t)))

/-- What every grid point leaves in the output's staging buffer. -/
theorem out_at (c : Dev nD) (t : Fin cfg0.N) : (outsAt0 m c t.val t.isLt).1 = tileOut m c t := by
  have hN : cfg0.N = 64 := N_0
  by_cases h0 : t.val % 16 = 0
  · rw [outsAt0_A m c t h0]
    dsimp only
    refine (out_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) _ (iblk m c 0 t) (iblk m c 1 t) (iblk m c 2 t) (iblk m c 3 t) (iblk m c 4 t) (iblk m c 5 t) (iblk m c 6 t)).trans ?_
    rw [blk1 m c t, blk2 m c t, blk3 m c t, blk4 m c t, blk5 m c t, blk6 m c t]
  · have hpos : 0 < t.val := Nat.pos_of_ne_zero fun hz => h0 (by rw [hz])
    have hlt : t.val - 1 < cfg0.N := Nat.lt_of_le_of_lt (Nat.sub_le _ _) t.isLt
    have ih := carried m c (t.val - 1) hlt
    have hx : xb m c ⟨t.val - 1, hlt⟩ = xb m c t :=
      xb_congr m c _ _ (by show (t.val - 1) / 16 = t.val / 16; omega)
    rw [outsAt0_B m c t h0]
    dsimp only
    refine (out_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) _ (iblk m c 0 t) (iblk m c 1 t) (iblk m c 2 t) (iblk m c 3 t) (iblk m c 4 t) (iblk m c 5 t) (iblk m c 6 t) _ _).trans ?_
    rw [ih.1, ih.2, hx, blk1 m c t, blk2 m c t]

end Cert.KernelIdeal.Carried

end
-- ==== Proof.SoftmaxRow.lean ====
/-
  One row of attention, on the extended reals.

  A row of scores `s k` and a column `v k` of values, `k` ranging over the keys. With `m` the largest score and
  `p k = exp (s k - m)`, the weighted value can be normalised late, `(∑ p k · v k) · (1 / ∑ p k)`, or early,
  `∑ (p k / ∑ p) · v k`. When every score and every value is a real number the maximum is one of the scores, hence
  real; each `p k` is a positive real; their sum is a positive real; and the two normalisations agree because a
  product distributes over a finite sum of reals. The logistic function is `1 / (1 + exp (-x))` by definition, so
  applying it in one piece or spelt out changes nothing.
-/
import Idealize.ShloMosaic.PureOps.Ideal
import Idealize.ShloMosaic.PureOps.Ideal.Laws

noncomputable section

namespace Cert.Attn

open Idealize.ShloMosaic
open scoped BigOperators

/-- An extended real that is a real number. -/
def IsR (a : EReal) : Prop := ∃ r : ℝ, a = (r : EReal)

theorem IsR.add {a b : EReal} (ha : IsR a) (hb : IsR b) : IsR (a + b) := by
  obtain ⟨r, rfl⟩ := ha; obtain ⟨t, rfl⟩ := hb; exact ⟨r + t, (EReal.coe_add r t).symm⟩

theorem IsR.mul {a b : EReal} (ha : IsR a) (hb : IsR b) : IsR (a * b) := by
  obtain ⟨r, rfl⟩ := ha; obtain ⟨t, rfl⟩ := hb; exact ⟨r * t, (EReal.coe_mul r t).symm⟩

/-- The embedding of a finite sum of reals is the sum of the embeddings. -/
theorem coe_sum {ι : Type} (s : Finset ι) (f : ι → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

theorem IsR.sum {ι : Type} [Fintype ι] {f : ι → EReal} (h : ∀ k, IsR (f k)) : IsR (∑ k, f k) := by
  choose g hg using h
  exact ⟨∑ k, g k, by rw [coe_sum]; exact Finset.sum_congr rfl fun k _ => hg k⟩

/-- The largest of finitely many reals, folded from `⊥`, is one of them. -/
theorem fold_max_coe {n : ℕ} (hn : 0 < n) (s : Fin n → ℝ) :
    ∃ k₀ : Fin n, (Finset.univ : Finset (Fin n)).fold max (⊥ : EReal) (fun k => (s k : EReal)) = (s k₀ : EReal) := by
  obtain ⟨k₀, -, hk₀⟩ := Finset.exists_mem_eq_sup (Finset.univ : Finset (Fin n)) ⟨⟨0, hn⟩, Finset.mem_univ _⟩
    (fun k => (s k : EReal))
  exact ⟨k₀, hk₀⟩

/-- Late normalisation, then the logistic function in one piece. -/
def rowLate {n : ℕ} (s v : Fin n → EReal) : EReal :=
  Ideal.logistic ((∑ k, Ideal.exp (s k - (Finset.univ : Finset (Fin n)).fold max ⊥ s) * v k)
    * Ideal.div 1 (∑ k, Ideal.exp (s k - (Finset.univ : Finset (Fin n)).fold max ⊥ s)))

/-- Early normalisation, then the logistic function spelt out. -/
def rowEarly {n : ℕ} (s v : Fin n → EReal) : EReal :=
  Ideal.div 1 (1 + Ideal.exp (-(∑ k, Ideal.div (Ideal.exp (s k - max ⊥ ((Finset.univ : Finset (Fin n)).fold max ⊥ s)))
    (0 + ∑ k', Ideal.exp (s k' - max ⊥ ((Finset.univ : Finset (Fin n)).fold max ⊥ s))) * v k)))

theorem rowLate_eq_rowEarly {n : ℕ} (hn : 0 < n) (s v : Fin n → EReal) (hs : ∀ k, IsR (s k)) (hv : ∀ k, IsR (v k)) :
    rowLate s v = rowEarly s v := by
  choose s' hs' using hs
  choose v' hv' using hv
  obtain rfl : s = fun k => (s' k : EReal) := funext hs'
  obtain rfl : v = fun k => (v' k : EReal) := funext hv'
  obtain ⟨k₀, hm⟩ := fold_max_coe hn s'
  unfold rowLate rowEarly
  rw [hm, max_eq_right bot_le]
  have hpos : 0 < ∑ k, Real.exp (s' k - s' k₀) :=
    Finset.sum_pos (fun k _ => Real.exp_pos _) ⟨⟨0, hn⟩, Finset.mem_univ _⟩
  simp only [← EReal.coe_sub, Ideal.exp_coe, ← EReal.coe_mul, ← coe_sum, zero_add, Ideal.div_coe hpos.ne', one_mul]
  have hreal : (∑ a, Real.exp (s' a - s' k₀) * v' a) * (1 / ∑ a, Real.exp (s' a - s' k₀))
      = ∑ a, Real.exp (s' a - s' k₀) * (1 / ∑ a, Real.exp (s' a - s' k₀)) * v' a := by
    rw [Finset.sum_mul]
    exact Finset.sum_congr rfl fun k _ => by ring
  rw [hreal]
  rfl

end Cert.Attn

end
-- ==== Proof.LibColumn.lean ====
/-
  Columns: a vector cast to a one-column matrix, and a one-column matrix broadcast along its rows.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.PayAt.lean ====
/-
  The body's arithmetic, read one entry at a time, on the extended reals.

  On extended reals a change of float format is the identity, a matrix product into a zero accumulator is the plain sum of
  products over the contracted axis, a reduction along an axis is a sum or a maximum over that axis's coordinates, and
  the layout operations (casts that add or drop a unit axis, broadcasts of a row or a column) only re-index. Read this
  way, the keys and values are `x·W + b` entry by entry, and entry `(p, e)` of the tile's result is one row of
  attention (SoftmaxRow.lean): the scores of query row `p` against every key, and column `e` of the values.
-/
import proofs.«408459_j4329327034632_3_alg».proof.Proof.Gen.KernelIdeal.Skeleton
import proofs.«408459_j4329327034632_3_alg».proof.Proof.SoftmaxRow
import proofs.«408459_j4329327034632_3_alg».proof.Proof.LibColumn
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.PayAt

open Cert.KernelIdeal Cert.KernelIdeal.Gen
open Idealize.ShloMosaic Idealize.ShloMosaic.ValueIdx
open scoped BigOperators

/-! ## The four matrix products as sums -/

theorem lhs_projKV_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_projKV_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_projKV_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_projKV_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl
/-- A batch's rows times a weight matrix: entry `(r, c)` sums over the 256 input channels. -/
theorem projKV_apply (A : FVec Ideal S4096x256 .bf16) (B : FVec Ideal S256x256 .bf16) (r : Fin 4096) (c : Fin 256) :
    matmul (F := Ideal) dot_S4096x256_S256x256_S4096x256_1_0_0_1_n_n none A B (constant (F := Ideal) S4096x256 .f32 0x00000000#32) (ix2 r c)
      = ∑ k : Fin 256, A (ix2 r k) * B (ix2 k c) := by
  refine (Ideal.matmul_constant_zero_apply dot_S4096x256_S256x256_S4096x256_1_0_0_1_n_n none A B (ix2 r c)).trans ?_
  rw [← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ix2 r c) ((ValueIdx.contrEquiv1 dot_S4096x256_S256x256_S4096x256_1_0_0_1_n_n 256 rfl rfl).symm k) = ix2 r k := funext fun a => Fin.ext (by
    match a with
    | ⟨0, _⟩ => exact lhs_projKV_0 _ _
    | ⟨1, _⟩ => exact (lhs_projKV_1 _ _).trans hk)
  have er : dot_S4096x256_S256x256_S4096x256_1_0_0_1_n_n.rhsIdx (ix2 r c) ((ValueIdx.contrEquiv1 dot_S4096x256_S256x256_S4096x256_1_0_0_1_n_n 256 rfl rfl).symm k) = ix2 k c := funext fun a => Fin.ext (by
    match a with
    | ⟨0, _⟩ => exact (rhs_projKV_0 _ _).trans hk
    | ⟨1, _⟩ => exact rhs_projKV_1 _ _)
  rw [el, er]

theorem lhs_projQ_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem lhs_projQ_1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
theorem rhs_projQ_0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
theorem rhs_projQ_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl
/-- A tile's rows times a weight matrix. -/
theorem projQ_apply (A : FVec Ideal S256x256 .bf16) (B : FVec Ideal S256x256 .bf16) (r : Fin 256) (c : Fin 256) :
    matmul (F := Ideal) dot_S256x256_S256x256_S256x256_1_0_0_1_n_n none A B (constant (F := Ideal) S256x256 .f32 0x00000000#32) (ix2 r c)
      = ∑ k : Fin 256, A (ix2 r k) * B (ix2 k c) := by
  refine (Ideal.matmul_constant_zero_apply dot_S256x256_S256x256_S256x256_1_0_0_1_n_n none A B (ix2 r c)).trans ?_
  rw [← Equiv.sum_comp (ValueIdx.contrEquiv1 dot_S256x256_S256x256_S256x256_1_0_0_1_n_n 256 rfl rfl).symm]
  refine Finset.sum_congr rfl fun k _ => ?_
  have hk := ValueIdx.contrEquiv1_symm_val dot_S256x256_S256x256_S256x256_1_0_0_1_n_n 256 rfl rfl k
  have el : dot_S256x256_S256x256_S256x256_1_0_0_1_n_n.lhsIdx (ix2 r c) ((ValueIdx.contrEquiv1 dot_S256x256_S256x256_S256x256_1_0_0_1_n_n 256 rfl rfl).symm k) = ix2 r k := funext fun a => Fin.ext (by
    match a with
    | ⟨0, _⟩ => exact lhs_projQ_0 _ _
    | ⟨1, _⟩ => exact (lhs_projQ_1 _ _).trans hk)
  have er : dot_S256x256_S256x256_S256x256_1_0_0_1_n_n.rhsIdx (ix2 r c) ((ValueIdx.contrEquiv1 dot_S256x256_S256x256_S256x256_1_0_0_1_n_n 256 rfl rfl).symm k) = ix2 k c := funext fun a => Fin.ext (by
    match a with
    | ⟨0, _⟩ => exact (rhs_projQ_0 _ _).trans hk
    | ⟨1, _⟩ => exact rhs_projQ_1 _ _)
  rw [el, er]

theorem lhs_scores_0 (i : S256x4096.Idx) (q : dot_S256x256_S4096x256_S256x4096_1_1_0_0_n_n.contr.Idx) :
    (dot_S256x256_S4096x256_S256x4096_1_1_0_0_n_n.lhsIdx i q 0).val = (i 0).val := by
  unfold DotDims.lhsIdx
  rw [dif_neg (show ¬(0 : Fin S256x256.rank) ∈ dot_S256x256_S4096x256_S256x4096_1_1_0_0_n_n.lhsBatch by decide), dif_pos (show (0 : Fin S256x256.rank) ∈ dot_S256x256_S4096x256_S256x4096_1_1_0_0_n_n.lhsNonContracting by decide)]
  rfl
theorem lhs_scores_1 (i : S256x4096.Idx) (q : dot_S256x256_S4096x256_S256x4096_1_1_0_0_n_n.contr.Idx) :
    (dot_S256x256_S4096x256_S256x4096_1_1_0_0_n_n.lhsIdx i q 1).val = (q ⟨0, by decide⟩).val :=
  dot_S256x256_S4096x256_S256x4096_1_1_0_0_n_n.lhsIdx_val_of_single rfl i q
theorem rhs_scores_0 (i : S256x4096.Idx) (q : dot_S256x256_S4096x256_S256x4096_1_1_0_0_n_n.contr.Idx) :
    (dot_S256x256_S4096x256_S256x4096_1_1_0_0_n_n.rhsIdx i q 0).val = (i 1).val := by
  unfold DotDims.rhsIdx
  rw [dif_neg (show ¬(0 : Fin S4096x256.rank) ∈ dot_S256x256_S4096x256_S256x4096_1_1_0_0_n_n.rhsBatch by decide), dif_pos (show (0 : Fin S4096x256.rank) ∈ dot_S256x256_S4096x256_S256x4096_1_1_0_0_n_n.rhsNonContracting by decide)]
  rfl
theorem rhs_scores_1 (i : S256x4096.Idx) (q : dot_S256x256_S4096x256_S256x4096_1_1_0_0_n_n.contr.Idx) :
    (dot_S256x256_S4096x256_S256x4096_1_1_0_0_n_n.rhsIdx i q 1).val = (q ⟨0, by decide⟩).val :=
  dot_S256x256_S4096x256_S256x4096_1_1_0_0_n_n.rhsIdx_val_of_single rfl i q
/-- Queries against keys, both contracted along their channel axis: entry `(p, r)` is the inner product of query row `p` and key row `r`. -/
theorem scores_apply (A : FVec Ideal S256x256 .bf16) (B : FVec Ideal S4096x256 .bf16) (p : Fin 256) (r : Fin 4096) :
    matmul (F := Ideal) dot_S256x256_S4096x256_S256x4096_1_1_0_0_n_n none A B (constant (F := Ideal) S256x4096 .f32 0x00000000#32) (ix2 p r)
      = ∑ k : Fin 256, A (ix2 p k) * B (ix2 r k) := by
  refine (Ideal.matmul_constant_zero_apply dot_S256x256_S4096x256_S256x4096_1_1_0_0_n_n none A B (ix2 p r)).trans ?_
  rw [← Equiv.sum_comp (ValueIdx.contrEquiv1 dot_S256x256_S4096x256_S256x4096_1_1_0_0_n_n 256 rfl rfl).symm]
  refine Finset.sum_congr rfl fun k _ => ?_
  have hk := ValueIdx.contrEquiv1_symm_val dot_S256x256_S4096x256_S256x4096_1_1_0_0_n_n 256 rfl rfl k
  have el : dot_S256x256_S4096x256_S256x4096_1_1_0_0_n_n.lhsIdx (ix2 p r) ((ValueIdx.contrEquiv1 dot_S256x256_S4096x256_S256x4096_1_1_0_0_n_n 256 rfl rfl).symm k) = ix2 p k := funext fun a => Fin.ext (by
    match a with
    | ⟨0, _⟩ => exact lhs_scores_0 _ _
    | ⟨1, _⟩ => exact (lhs_scores_1 _ _).trans hk)
  have er : dot_S256x256_S4096x256_S256x4096_1_1_0_0_n_n.rhsIdx (ix2 p r) ((ValueIdx.contrEquiv1 dot_S256x256_S4096x256_S256x4096_1_1_0_0_n_n 256 rfl rfl).symm k) = ix2 r k := funext fun a => Fin.ext (by
    match a with
    | ⟨0, _⟩ => exact rhs_scores_0 _ _
    | ⟨1, _⟩ => exact (rhs_scores_1 _ _).trans hk)
  rw [el, er]

theorem lhs_weighted_0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
theorem lhs_weighted_1 (i : S256x256.Idx) (q : dot_S256x4096_S4096x256_S256x256_1_0_0_1_n_n.contr.Idx) :
    (dot_S256x4096_S4096x256_S256x256_1_0_0_1_n_n.lhsIdx i q 1).val = (q ⟨0, by decide⟩).val :=
  dot_S256x4096_S4096x256_S256x256_1_0_0_1_n_n.lhsIdx_val_of_single rfl i q
theorem rhs_weighted_0 (i : S256x256.Idx) (q : dot_S256x4096_S4096x256_S256x256_1_0_0_1_n_n.contr.Idx) :
    (dot_S256x4096_S4096x256_S256x256_1_0_0_1_n_n.rhsIdx i q 0).val = (q ⟨0, by decide⟩).val :=
  dot_S256x4096_S4096x256_S256x256_1_0_0_1_n_n.rhsIdx_val_of_single rfl i q
theorem rhs_weighted_1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl
/-- Weights times values: entry `(p, e)` sums over the 4096 keys. -/
theorem weighted_apply (A : FVec Ideal S256x4096 .bf16) (B : FVec Ideal S4096x256 .bf16) (p : Fin 256) (e : Fin 256) :
    matmul (F := Ideal) dot_S256x4096_S4096x256_S256x256_1_0_0_1_n_n none A B (constant (F := Ideal) S256x256 .f32 0x00000000#32) (ix2 p e)
      = ∑ k : Fin 4096, A (ix2 p k) * B (ix2 k e) := by
  refine (Ideal.matmul_constant_zero_apply dot_S256x4096_S4096x256_S256x256_1_0_0_1_n_n none A B (ix2 p e)).trans ?_
  rw [← Equiv.sum_comp (ValueIdx.contrEquiv1 dot_S256x4096_S4096x256_S256x256_1_0_0_1_n_n 4096 rfl rfl).symm]
  refine Finset.sum_congr rfl fun k _ => ?_
  have hk := ValueIdx.contrEquiv1_symm_val dot_S256x4096_S4096x256_S256x256_1_0_0_1_n_n 4096 rfl rfl k
  have el : dot_S256x4096_S4096x256_S256x256_1_0_0_1_n_n.lhsIdx (ix2 p e) ((ValueIdx.contrEquiv1 dot_S256x4096_S4096x256_S256x256_1_0_0_1_n_n 4096 rfl rfl).symm k) = ix2 p k := funext fun a => Fin.ext (by
    match a with
    | ⟨0, _⟩ => exact lhs_weighted_0 _ _
    | ⟨1, _⟩ => exact (lhs_weighted_1 _ _).trans hk)
  have er : dot_S256x4096_S4096x256_S256x256_1_0_0_1_n_n.rhsIdx (ix2 p e) ((ValueIdx.contrEquiv1 dot_S256x4096_S4096x256_S256x256_1_0_0_1_n_n 4096 rfl rfl).symm k) = ix2 k e := funext fun a => Fin.ext (by
    match a with
    | ⟨0, _⟩ => exact (rhs_weighted_0 _ _).trans hk
    | ⟨1, _⟩ => exact rhs_weighted_1 _ _)
  rw [el, er]

/-! ## The keys and the values -/

/-- Entry `(r, c)` of the stored keys: row `r` of the batch's block times column `c` of the weights, plus the bias. -/
theorem keys_apply (X : Vec Ideal S1x4096x256 .bf16) (W : Vec Ideal S256x256 .bf16) (B : Vec Ideal S1x256 .f32)
    (r : Fin 4096) (c : Fin 256) :
    k0_pay3 (F := Ideal) X W B (ix2 r c)
      = (∑ j : Fin 256, X (ix3 (0 : Fin 1) r j) * W (ix2 j c)) + B (ix2 (0 : Fin 1) c) := by
  unfold k0_pay3 k0_pay2
  rw [shapeCast_self]
  show matmul (F := Ideal) dot_S4096x256_S256x256_S4096x256_1_0_0_1_n_n none _ _ (constant (F := Ideal) S4096x256 .f32 0x00000000#32) (ix2 r c)
    + broadcastTo S4096x256 _ broadcasts_S1x256_S4096x256 (ix2 r c) = _
  rw [projKV_apply, broadcastTo_1b_ab_apply, shapeCast_self, shapeCast_self]
  exact congrArg (· + _) (Finset.sum_congr rfl fun j _ => by rw [shapeCast_1ab_ab_apply])

/-- Entry `(r, e)` of the stored values. -/
theorem vals_apply (X : Vec Ideal S1x4096x256 .bf16) (W : Vec Ideal S256x256 .bf16) (B : Vec Ideal S1x256 .f32)
    (r : Fin 4096) (e : Fin 256) :
    k0_pay4 (F := Ideal) X W B (ix2 r e)
      = (∑ j : Fin 256, X (ix3 (0 : Fin 1) r j) * W (ix2 j e)) + B (ix2 (0 : Fin 1) e) := by
  unfold k0_pay4 k0_pay2
  rw [shapeCast_self]
  show matmul (F := Ideal) dot_S4096x256_S256x256_S4096x256_1_0_0_1_n_n none _ _ (constant (F := Ideal) S4096x256 .f32 0x00000000#32) (ix2 r e)
    + broadcastTo S4096x256 _ broadcasts_S1x256_S4096x256 (ix2 r e) = _
  rw [projKV_apply, broadcastTo_1b_ab_apply, shapeCast_self, shapeCast_self]
  exact congrArg (· + _) (Finset.sum_congr rfl fun j _ => by rw [shapeCast_1ab_ab_apply])

/-- The stored block is the tile's result with a leading unit axis. -/
theorem store_apply (v : FVec Ideal S256x256 .f32) (u : Fin 1) (p e : Fin 256) :
    k0_pay1 (F := Ideal) v (ix3 u p e) = v (ix2 p e) := by
  unfold k0_pay1
  exact shapeCast_ab_1ab_apply v _ u p e

/-! ## One query tile -/

section Stages

variable {F : FTy → Type} [FloatOps F]

/-- The tile's queries: its 256 rows of `x` times `Wq`, plus `bq`. -/
def queries (Q : Vec F S1x256x256 .bf16) (W : Vec F S256x256 .bf16) (B : Vec F S1x256 .f32) : FVec F S256x256 .bf16 :=
  have v7 : FVec F S256x256 .bf16 := shapeCast S256x256 Q shapeCasts_S1x256x256_S256x256
  have v9 : FVec F S256x256 .bf16 := shapeCast S256x256 W shapeCasts_S256x256_S256x256
  have cst : FVec F S256x256 .f32 := constant S256x256 .f32 0x00000000#32
  have v10 : FVec F S256x256 .f32 := matmul dot_S256x256_S256x256_S256x256_1_0_0_1_n_n none v7 v9 cst
  have v12 : FVec F S1x256 .f32 := shapeCast S1x256 B shapeCasts_S1x256_S1x256
  have v13 : FVec F S256x256 .f32 := broadcastTo S256x256 v12 broadcasts_S1x256_S256x256
  have v14 : FVec F S256x256 .f32 := addf v10 v13
  truncf .bf16 v14 bitsLt_bf16_f32

/-- The scores of the tile's queries against all the keys. -/
def scoreTile (Q : Vec F S1x256x256 .bf16) (W : Vec F S256x256 .bf16) (B : Vec F S1x256 .f32)
    (K : Vec F S4096x256 .bf16) : FVec F S256x4096 .f32 :=
  have cst_8 : FVec F S256x4096 .f32 := constant S256x4096 .f32 0x00000000#32
  matmul dot_S256x256_S4096x256_S256x4096_1_1_0_0_n_n none (queries Q W B) K cst_8

/-- The largest score of each row. -/
def rowMax (S : FVec F S256x4096 .f32) : FVec F S256 .f32 :=
  multiReduction .maximumf [1] S256 S 0xFF800000#32 reduces_S256x4096_S256 (.inl rfl) rfl

/-- The exponentials of the scores less their row's maximum. -/
def expTile (S : FVec F S256x4096 .f32) : FVec F S256x4096 .f32 :=
  have v19 : FVec F S256x1 .f32 := shapeCast S256x1 (rowMax S) shapeCasts_S256_S256x1
  have v20 : FVec F S256x4096 .f32 := broadcastTo S256x4096 v19 broadcasts_S256x1_S256x4096
  exp (subf S v20)

/-- The sum of each row of exponentials. -/
def rowSum (P : FVec F S256x4096 .f32) : FVec F S256 .f32 :=
  multiReduction .add [1] S256 P 0x00000000#32 reduces_S256x4096_S256 (.inl rfl) rfl

/-- The weights times the values, then each row divided by its sum of weights, then the logistic function. -/
def finish (P : FVec F S256x4096 .f32) (V : Vec F S4096x256 .bf16) : FVec F S256x256 .f32 :=
  have v24 : FVec F S256x1 .f32 := shapeCast S256x1 (rowSum P) shapeCasts_S256_S256x1
  have v25 : FVec F S256x4096 .bf16 := truncf .bf16 P bitsLt_bf16_f32
  have cst_13 : FVec F S256x256 .f32 := constant S256x256 .f32 0x00000000#32
  have v27 : FVec F S256x256 .f32 := matmul dot_S256x4096_S4096x256_S256x256_1_0_0_1_n_n none v25 V cst_13
  have cst_14 : F .f32 := Scalar.ofBits .f32 0x3F800000#32
  have v28 : FVec F S256x1 .f32 := broadcast S256x1 cst_14
  have v29 : FVec F S256x1 .f32 := divf v28 v24
  have v30 : FVec F S256x256 .f32 := broadcastTo S256x256 v29 broadcasts_S256x1_S256x256
  logistic (mulf v27 v30)

/-- The tile's result is the composition of these stages. -/
theorem tile_eq (Q : Vec F S1x256x256 .bf16) (W : Vec F S256x256 .bf16) (B : Vec F S1x256 .f32)
    (K V : Vec F S4096x256 .bf16) :
    k0_pay5 Q W B K V = finish (expTile (scoreTile Q W B K)) V := rfl

end Stages

theorem queries_apply (Q : Vec Ideal S1x256x256 .bf16) (W : Vec Ideal S256x256 .bf16) (B : Vec Ideal S1x256 .f32)
    (p c : Fin 256) :
    queries (F := Ideal) Q W B (ix2 p c) = (∑ j : Fin 256, Q (ix3 (0 : Fin 1) p j) * W (ix2 j c)) + B (ix2 (0 : Fin 1) c) := by
  unfold queries
  show matmul (F := Ideal) dot_S256x256_S256x256_S256x256_1_0_0_1_n_n none _ _ (constant (F := Ideal) S256x256 .f32 0x00000000#32) (ix2 p c)
    + broadcastTo S256x256 _ broadcasts_S1x256_S256x256 (ix2 p c) = _
  rw [projQ_apply, broadcastTo_1b_ab_apply, shapeCast_self, shapeCast_self]
  exact congrArg (· + _) (Finset.sum_congr rfl fun j _ => by rw [shapeCast_1ab_ab_apply])

theorem scoreTile_apply (Q : Vec Ideal S1x256x256 .bf16) (W : Vec Ideal S256x256 .bf16) (B : Vec Ideal S1x256 .f32)
    (K : Vec Ideal S4096x256 .bf16) (p : Fin 256) (r : Fin 4096) :
    scoreTile (F := Ideal) Q W B K (ix2 p r)
      = ∑ c : Fin 256, ((∑ j : Fin 256, Q (ix3 (0 : Fin 1) p j) * W (ix2 j c)) + B (ix2 (0 : Fin 1) c)) * K (ix2 r c) := by
  unfold scoreTile
  refine (scores_apply (queries (F := Ideal) Q W B) K p r).trans ?_
  exact Finset.sum_congr rfl fun c _ => by rw [queries_apply]

theorem ofBits_neg_inf : Ideal.ofBits .f32 0xFF800000#32 = ⊥ := by simp [Ideal.ofBits, Ideal.ieee]

theorem rowMax_apply (S : FVec Ideal S256x4096 .f32) (p : Fin 256) :
    rowMax (F := Ideal) S (ix1 p) = (Finset.univ : Finset (Fin 4096)).fold max ⊥ (fun r : Fin 4096 => S (ix2 p r)) := by
  unfold rowMax
  refine (Ideal.multiReduction_maximumf_single S _ reduces_S256x4096_S256 _ _ (ix1 p)).trans ?_
  show (Finset.univ : Finset (Fin 4096)).fold max (Ideal.ofBits .f32 0xFF800000#32)
    (fun r : Fin 4096 => S (reduces_S256x4096_S256.lift (ix1 p) r)) = _
  rw [ofBits_neg_inf]
  refine congrArg (fun g : Fin 4096 → EReal => (Finset.univ : Finset (Fin 4096)).fold max ⊥ g) (funext fun r => ?_)
  refine congrArg S (funext fun a => Fin.ext ?_)
  match a with
  | ⟨0, _⟩ => rfl
  | ⟨1, _⟩ => rfl

theorem expTile_apply (S : FVec Ideal S256x4096 .f32) (p : Fin 256) (r : Fin 4096) :
    expTile (F := Ideal) S (ix2 p r)
      = Ideal.exp (S (ix2 p r) - (Finset.univ : Finset (Fin 4096)).fold max ⊥ (fun r' : Fin 4096 => S (ix2 p r'))) := by
  unfold expTile
  show Ideal.exp (S (ix2 p r) - broadcastTo S256x4096 _ broadcasts_S256x1_S256x4096 (ix2 p r)) = _
  rw [Cert.LibColumn.broadcastTo_a1_ab_apply, Cert.LibColumn.shapeCast_a_a1_apply, rowMax_apply]

theorem rowSum_apply (P : FVec Ideal S256x4096 .f32) (p : Fin 256) :
    rowSum (F := Ideal) P (ix1 p) = ∑ r : Fin 4096, P (ix2 p r) := by
  unfold rowSum
  refine (Ideal.multiReduction_add_single P _ reduces_S256x4096_S256 _ _ (ix1 p)).trans ?_
  refine Finset.sum_congr rfl fun r _ => congrArg P (funext fun a => Fin.ext ?_)
  match a with
  | ⟨0, _⟩ => rfl
  | ⟨1, _⟩ => rfl

theorem finish_apply (P : FVec Ideal S256x4096 .f32) (V : Vec Ideal S4096x256 .bf16) (p e : Fin 256) :
    finish (F := Ideal) P V (ix2 p e)
      = Ideal.logistic ((∑ k : Fin 4096, P (ix2 p k) * V (ix2 k e)) * Ideal.div 1 (∑ k : Fin 4096, P (ix2 p k))) := by
  unfold finish
  show Ideal.logistic (matmul (F := Ideal) dot_S256x4096_S4096x256_S256x256_1_0_0_1_n_n none (φ₁ := .bf16) (φ₂ := .bf16) _ _ (constant (F := Ideal) S256x256 .f32 0x00000000#32) (ix2 p e)
    * broadcastTo S256x256 _ broadcasts_S256x1_S256x256 (ix2 p e)) = _
  rw [weighted_apply, Cert.LibColumn.broadcastTo_a1_ab_apply]
  show Ideal.logistic ((∑ k : Fin 4096, P (ix2 p k) * V (ix2 k e))
    * Ideal.div (Ideal.ofBits .f32 0x3F800000#32) (shapeCast S256x1 (rowSum (F := Ideal) P) shapeCasts_S256_S256x1 (ix2 p (0 : Fin 1)))) = _
  rw [Cert.LibColumn.shapeCast_a_a1_apply, rowSum_apply, Ideal.ofBits_one_f32]

/-- Entry `(p, e)` of the tile's result: one row of attention over the scores of query row `p` and column `e` of the values. -/
theorem tile_apply (Q : Vec Ideal S1x256x256 .bf16) (W : Vec Ideal S256x256 .bf16) (B : Vec Ideal S1x256 .f32)
    (K V : Vec Ideal S4096x256 .bf16) (p e : Fin 256) :
    k0_pay5 (F := Ideal) Q W B K V (ix2 p e)
      = Cert.Attn.rowLate
          (fun r : Fin 4096 => ∑ c : Fin 256, ((∑ j : Fin 256, Q (ix3 (0 : Fin 1) p j) * W (ix2 j c)) + B (ix2 (0 : Fin 1) c)) * K (ix2 r c))
          (fun r : Fin 4096 => V (ix2 r e)) := by
  rw [tile_eq, finish_apply]
  unfold Cert.Attn.rowLate
  simp only [expTile_apply, scoreTile_apply]

end Cert.KernelIdeal.PayAt

end
-- ==== Proof.AttnSpec.lean ====
/-
  Single-head attention over [4, 4096, 256], as one function of the seven input arrays.

  For batch `b`: queries, keys and values are `x·Wq + bq`, `x·Wk + bk`, `x·Wv + bv` (rows `s`, columns `d`); the score
  of query row `q` against key row `k` is the inner product of the two rows; entry `(b, q, e)` of the result is one
  row of attention (SoftmaxRow.lean) over the scores `(q, ·)` and column `e` of the values, through the logistic
  function. The two normalisation orders give two spellings of the result; they agree when every input entry is a real
  number, because then every query, key, value and score is one too.
-/
import proofs.«408459_j4329327034632_3_alg».proof.Proof.SoftmaxRow
import Idealize.ShloMosaic.Lib.ValueIdx

noncomputable section

namespace Cert.Attn

open Idealize.ShloMosaic Idealize.ShloMosaic.ValueIdx
open scoped BigOperators

/-- The shapes of `x` (and of the result), of a weight matrix and of a bias. -/
abbrev SX : Shape := ⟨3, ![4, 4096, 256]⟩
abbrev SW : Shape := ⟨2, ![256, 256]⟩
abbrev SB : Shape := ⟨1, ![256]⟩

/-- Entry `(s, d)` of `x[b]·W + bias`. -/
def proj (x : SX.Idx → EReal) (W : SW.Idx → EReal) (bias : SB.Idx → EReal) (b : Fin 4) (s : Fin 4096) (d : Fin 256) : EReal :=
  (∑ j : Fin 256, x (ix3 b s j) * W (ix2 j d)) + bias (ix1 d)

/-- The score of query row `q` against key row `k` in batch `b`. -/
def score (x : SX.Idx → EReal) (Wq : SW.Idx → EReal) (bq : SB.Idx → EReal) (Wk : SW.Idx → EReal) (bk : SB.Idx → EReal)
    (b : Fin 4) (q k : Fin 4096) : EReal :=
  ∑ c : Fin 256, proj x Wq bq b q c * proj x Wk bk b k c

/-- Attention, normalised after the product with the values. -/
def attnLate (x : SX.Idx → EReal) (Wq : SW.Idx → EReal) (bq : SB.Idx → EReal) (Wk : SW.Idx → EReal) (bk : SB.Idx → EReal)
    (Wv : SW.Idx → EReal) (bv : SB.Idx → EReal) (i : SX.Idx) : EReal :=
  rowLate (fun k : Fin 4096 => score x Wq bq Wk bk (i 0) (i 1) k) (fun k : Fin 4096 => proj x Wv bv (i 0) k (i 2))

/-- Attention, normalised before the product with the values. -/
def attnEarly (x : SX.Idx → EReal) (Wq : SW.Idx → EReal) (bq : SB.Idx → EReal) (Wk : SW.Idx → EReal) (bk : SB.Idx → EReal)
    (Wv : SW.Idx → EReal) (bv : SB.Idx → EReal) (i : SX.Idx) : EReal :=
  rowEarly (fun k : Fin 4096 => score x Wq bq Wk bk (i 0) (i 1) k) (fun k : Fin 4096 => proj x Wv bv (i 0) k (i 2))

theorem proj_isR {x : SX.Idx → EReal} {W : SW.Idx → EReal} {bias : SB.Idx → EReal} (hx : ∀ i, IsR (x i))
    (hW : ∀ i, IsR (W i)) (hb : ∀ i, IsR (bias i)) (b : Fin 4) (s : Fin 4096) (d : Fin 256) : IsR (proj x W bias b s d) :=
  (IsR.sum fun j => (hx _).mul (hW _)).add (hb _)

/-- With real inputs the two normalisation orders give the same array. -/
theorem attnLate_eq_attnEarly {x : SX.Idx → EReal} {Wq : SW.Idx → EReal} {bq : SB.Idx → EReal} {Wk : SW.Idx → EReal}
    {bk : SB.Idx → EReal} {Wv : SW.Idx → EReal} {bv : SB.Idx → EReal} (hx : ∀ i, IsR (x i)) (hWq : ∀ i, IsR (Wq i))
    (hbq : ∀ i, IsR (bq i)) (hWk : ∀ i, IsR (Wk i)) (hbk : ∀ i, IsR (bk i)) (hWv : ∀ i, IsR (Wv i)) (hbv : ∀ i, IsR (bv i)) :
    attnLate x Wq bq Wk bk Wv bv = attnEarly x Wq bq Wk bk Wv bv :=
  funext fun i => rowLate_eq_rowEarly (by decide) _ _
    (fun k => IsR.sum fun c => (proj_isR hx hWq hbq _ _ _).mul (proj_isR hx hWk hbk _ _ _))
    (fun k => proj_isR hx hWv hbv _ _ _)

end Cert.Attn

end
-- ==== Proof.Final.lean ====
/-
  The kernel's result array is the attention function of its seven arguments.

  Grid point `t` is batch `t / 16` and query tile `t % 16`; it writes back rows `256·(t % 16) … + 255` of batch `t / 16`.
  Read entry by entry over the arguments, the tile's result at local index `(p, e)` is attention at
  `(t / 16, 256·(t % 16) + p, e)`: the tile's rows of `x` are those rows of the batch, the staged weights and biases are
  the arguments themselves, and the scratch holds the batch's keys and values. Every index `(b, s, e)` of the result lies
  in the block of point `16·b + s / 256`, so after the run the whole array is the attention function.
-/
import proofs.«408459_j4329327034632_3_alg».proof.Proof.Carried
import proofs.«408459_j4329327034632_3_alg».proof.Proof.PayAt
import proofs.«408459_j4329327034632_3_alg».proof.Proof.AttnSpec
import proofs.«408459_j4329327034632_3_alg».proof.Proof.Gen.KernelIdeal.Value

noncomputable section

namespace Cert.KernelIdeal.Final

open Cert.KernelIdeal Cert.KernelIdeal.Gen Cert.KernelIdeal.Pieces Cert.KernelIdeal.Blocks Cert.KernelIdeal.Carried
open Cert.KernelIdeal.PayAt
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- The seven arguments as arrays of extended reals. -/
abbrev a0 (c : Dev nD) : Cert.Attn.SX.Idx → EReal := (m ((c : Thread nD τ).loc main_arg0))
abbrev a1 (c : Dev nD) : Cert.Attn.SW.Idx → EReal := (m ((c : Thread nD τ).loc main_arg1))
abbrev a2 (c : Dev nD) : Cert.Attn.SB.Idx → EReal := (m ((c : Thread nD τ).loc main_arg2))
abbrev a3 (c : Dev nD) : Cert.Attn.SW.Idx → EReal := (m ((c : Thread nD τ).loc main_arg3))
abbrev a4 (c : Dev nD) : Cert.Attn.SB.Idx → EReal := (m ((c : Thread nD τ).loc main_arg4))
abbrev a5 (c : Dev nD) : Cert.Attn.SW.Idx → EReal := (m ((c : Thread nD τ).loc main_arg5))
abbrev a6 (c : Dev nD) : Cert.Attn.SB.Idx → EReal := (m ((c : Thread nD τ).loc main_arg6))

/-- Attention of the arguments. -/
abbrev G (c : Dev nD) : S4x4096x256.Idx → EReal :=
  Cert.Attn.attnLate (a0 m c) (a1 m c) (a2 m c) (a3 m c) (a4 m c) (a5 m c) (a6 m c)

/-! ## The staged arrays, read over the arguments -/

theorem x_at (c : Dev nD) (t : Fin cfg0.N) (r : Fin 4096) (j : Fin 256) :
    xb m c t (ix3 (0 : Fin 1) r j) = a0 m c (ix3 (batch t) r j) :=
  (xblk_apply m c t (ix3 (0 : Fin 1) r j)).trans ((congrFun (v0_eq m c) _).trans rfl)

theorem wq_at (c : Dev nD) (j d : Fin 256) : wq m c (ix2 j d) = a1 m c (ix2 j d) := (congrFun (v1_eq m c) _).trans rfl
theorem wk_at (c : Dev nD) (j d : Fin 256) : wk m c (ix2 j d) = a3 m c (ix2 j d) := (congrFun (v2_eq m c) _).trans rfl
theorem wv_at (c : Dev nD) (j d : Fin 256) : wv m c (ix2 j d) = a5 m c (ix2 j d) := (congrFun (v3_eq m c) _).trans rfl
theorem bq_at (c : Dev nD) (d : Fin 256) : bq m c (ix2 (0 : Fin 1) d) = a2 m c (ix1 d) :=
  (congrFun (v4_eq m c) _).trans (shapeCast_a_1a_apply _ _ (0 : Fin 1) d)
theorem bk_at (c : Dev nD) (d : Fin 256) : bk m c (ix2 (0 : Fin 1) d) = a4 m c (ix1 d) :=
  (congrFun (v5_eq m c) _).trans (shapeCast_a_1a_apply _ _ (0 : Fin 1) d)
theorem bv_at (c : Dev nD) (d : Fin 256) : bv m c (ix2 (0 : Fin 1) d) = a6 m c (ix1 d) :=
  (congrFun (v6_eq m c) _).trans (shapeCast_a_1a_apply _ _ (0 : Fin 1) d)

/-- Row `p` of the query tile of point `t` is row `256·(t % 16) + p` of the batch. -/
abbrev qrow (t : Fin cfg0.N) (p : Fin 256) : Fin 4096 := ⟨256 * (t.val % 16) + p.val, by have := p.isLt; omega⟩

theorem qtile_at (t : Fin cfg0.N) (X : Vec Ideal S1x4096x256 .bf16) (p j : Fin 256) :
    qtile (grid0.coords t) X (ix3 (0 : Fin 1) p j) = X (ix3 (0 : Fin 1) (qrow t p) j) := by
  have ho := off1 t
  unfold qtile
  show X ((Rect.unit (s := S1x4096x256) (k0_off1 (grid0.coords t)) S1x256x256.size (k0_off1_inb (grid0.coords t))).idx (ix3 (0 : Fin 1) p j)) = _
  refine congrArg X (funext fun a => Fin.ext ?_)
  match a with
  | ⟨0, _⟩ => show k0_off1 (grid0.coords t) 0 + 1 * 0 = 0; rw [ho]; rfl
  | ⟨1, _⟩ => show k0_off1 (grid0.coords t) 1 + 1 * p.val = 256 * (t.val % 16) + p.val; rw [ho]; show 256 * (t.val % 16) + 1 * p.val = _; omega
  | ⟨2, _⟩ => show k0_off1 (grid0.coords t) 2 + 1 * j.val = j.val; rw [ho]; show 0 + 1 * j.val = _; omega

/-- Entry `(r, d)` of the batch's keys and of its values, over the arguments. -/
theorem keys_at (c : Dev nD) (t : Fin cfg0.N) (r : Fin 4096) (d : Fin 256) :
    keysOf m c (xb m c t) (ix2 r d) = Cert.Attn.proj (a0 m c) (a3 m c) (a4 m c) (batch t) r d := by
  refine (keys_apply _ _ _ r d).trans ?_
  unfold Cert.Attn.proj
  rw [bk_at]
  exact congrArg (· + _) (Finset.sum_congr rfl fun j _ => by rw [x_at, wk_at])

theorem vals_at (c : Dev nD) (t : Fin cfg0.N) (r : Fin 4096) (d : Fin 256) :
    valsOf m c (xb m c t) (ix2 r d) = Cert.Attn.proj (a0 m c) (a5 m c) (a6 m c) (batch t) r d := by
  refine (vals_apply _ _ _ r d).trans ?_
  unfold Cert.Attn.proj
  rw [bv_at]
  exact congrArg (· + _) (Finset.sum_congr rfl fun j _ => by rw [x_at, wv_at])

/-- Entry `(p, d)` of the tile's queries, over the arguments. -/
theorem query_at (c : Dev nD) (t : Fin cfg0.N) (p d : Fin 256) :
    (∑ j : Fin 256, qtile (grid0.coords t) (xb m c t) (ix3 (0 : Fin 1) p j) * wq m c (ix2 j d)) + bq m c (ix2 (0 : Fin 1) d)
      = Cert.Attn.proj (a0 m c) (a1 m c) (a2 m c) (batch t) (qrow t p) d := by
  unfold Cert.Attn.proj
  rw [bq_at]
  exact congrArg (· + _) (Finset.sum_congr rfl fun j _ => by rw [qtile_at, x_at, wq_at])

/-- The tile's result at local index `(u, p, e)` is attention at `(t / 16, 256·(t % 16) + p, e)`. -/
theorem tile_entry (c : Dev nD) (t : Fin cfg0.N) (u : Fin 1) (p e : Fin 256) :
    tileOut m c t (ix3 u p e) = G m c (ix3 (batch t) (qrow t p) e) := by
  show k0_pay1 (F := Ideal) (k0_pay5 (F := Ideal) (qtile (grid0.coords t) (xb m c t)) (wq m c) (bq m c)
    (keysOf m c (xb m c t)) (valsOf m c (xb m c t))) (ix3 u p e) = _
  rw [store_apply, tile_apply]
  show _ = Cert.Attn.rowLate (fun k : Fin 4096 => Cert.Attn.score (a0 m c) (a1 m c) (a2 m c) (a3 m c) (a4 m c) (batch t) (qrow t p) k)
    (fun k : Fin 4096 => Cert.Attn.proj (a0 m c) (a5 m c) (a6 m c) (batch t) k e)
  refine congrArg₂ Cert.Attn.rowLate (funext fun r => ?_) (funext fun r => vals_at m c t r e)
  unfold Cert.Attn.score
  exact Finset.sum_congr rfl fun d _ => by rw [query_at, keys_at]

/-! ## From blocks to the array -/

/-- What point `t` writes back is its block of the attention function. -/
theorem flushed_eq (c : Dev nD) (t : Fin cfg0.N) :
    (dats m 0 c).flushed 7 t = ((cfg0.win 7).blk t).view.read (Elt Ideal) (G m c) := by
  have hi := idx7 t
  rw [Cert.KernelIdeal.Value.flushed7, out_at]
  funext y
  obtain ⟨u, p, e, rfl⟩ : ∃ (u : Fin 1) (p e : Fin 256), y = ix3 u p e := ⟨y 0, y 1, y 2, eq_ix3 y⟩
  show tileOut m c t (ix3 u p e) = G m c (((cfg0.win 7).blk t).view.emb (ix3 u p e))
  rw [tile_entry]
  refine congrArg (G m c) (funext fun a => Fin.ext ?_)
  have hu : u.val = 0 := by omega
  match a with
  | ⟨0, _⟩ => show t.val / 16 = win0_7.index t 0 * 1 + 1 * u.val; rw [hi.1]; omega
  | ⟨1, _⟩ => show 256 * (t.val % 16) + p.val = win0_7.index t 1 * 256 + 1 * p.val; rw [hi.2.1]; omega
  | ⟨2, _⟩ => show e.val = win0_7.index t 2 * 256 + 1 * e.val; rw [hi.2.2]; omega

/-- An index of the array is in point `t`'s block iff each coordinate is in the block's range on its axis. -/
theorem mem_blk (t : Fin cfg0.N) (i : S4x4096x256.Idx) :
    i ∈ ((cfg0.win 7).blk t).view.set ↔ ∀ a : Fin 3, win0_7.index t a * S1x256x256.size a ≤ (i a).val
      ∧ (i a).val < win0_7.index t a * S1x256x256.size a + S1x256x256.size a := by
  show i ∈ ((View.whole main_v7).slice (win0_7.rect t)).set ↔ _
  rw [View.set_slice_whole, Rect.mem_set_unit]
  exact Iff.rfl

/-- Every index `(b, s, e)` lies in the block of point `16·b + s / 256`. -/
theorem cover (i : S4x4096x256.Idx) :
    ∃ t : Fin cfg0.N, (cfg0.win 7).flush t = true ∧ i ∈ ((cfg0.win 7).blk t).view.set := by
  have hN : cfg0.N = 64 := N_0
  have h0 : (i 0).val < 4 := (i 0).isLt
  have h1 : (i 1).val < 4096 := (i 1).isLt
  have h2 : (i 2).val < 256 := (i 2).isLt
  have hlt : 16 * (i 0).val + (i 1).val / 256 < cfg0.N := by omega
  refine ⟨⟨16 * (i 0).val + (i 1).val / 256, hlt⟩, flush0_7 _, ?_⟩
  rw [mem_blk]
  obtain ⟨e0, e1, e2⟩ := idx7 ⟨16 * (i 0).val + (i 1).val / 256, hlt⟩
  intro a
  match a with
  | ⟨0, _⟩ =>
    show win0_7.index ⟨16 * (i 0).val + (i 1).val / 256, hlt⟩ 0 * 1 ≤ (i 0).val
      ∧ (i 0).val < win0_7.index ⟨16 * (i 0).val + (i 1).val / 256, hlt⟩ 0 * 1 + 1
    rw [e0]; show (16 * (i 0).val + (i 1).val / 256) / 16 * 1 ≤ _ ∧ _ < (16 * (i 0).val + (i 1).val / 256) / 16 * 1 + 1; omega
  | ⟨1, _⟩ =>
    show win0_7.index ⟨16 * (i 0).val + (i 1).val / 256, hlt⟩ 1 * 256 ≤ (i 1).val
      ∧ (i 1).val < win0_7.index ⟨16 * (i 0).val + (i 1).val / 256, hlt⟩ 1 * 256 + 256
    rw [e1]; show (16 * (i 0).val + (i 1).val / 256) % 16 * 256 ≤ _ ∧ _ < (16 * (i 0).val + (i 1).val / 256) % 16 * 256 + 256; omega
  | ⟨2, _⟩ =>
    show win0_7.index ⟨16 * (i 0).val + (i 1).val / 256, hlt⟩ 2 * 256 ≤ (i 2).val
      ∧ (i 2).val < win0_7.index ⟨16 * (i 0).val + (i 1).val / 256, hlt⟩ 2 * 256 + 256
    rw [e2]; omega

/-- The result array after the run. -/
theorem final (c : Dev nD) : (dats m 0 c).arrAt 7 cfg0.N = G m c :=
  (dats m 0 c).arrAt_eq_of_cover 7 (G m c) (fun t _ => flushed_eq m c t) cover

/-- The run: the result array at the attention function of the arguments, the arguments unchanged. -/
theorem run : θ_run defs (onTc (τ := τ) (main (F := Ideal))) ⟨m, fun _ => 0, ρ⟩ fun r => ∀ c : Dev nD,
      r.2.mem ((c : Thread nD τ).loc main_v7) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Final

end
-- ==== Proof.RefValue.lean ====
/-
  The reference's result, entry by entry, is early-normalised attention.

  Each operation of the reference is read at an index. The three projections are a contraction over the 256 input
  columns plus a bias; a score is the contraction of a query row with a key row; the row maximum is a fold of `max`
  from `-∞` over the 4096 keys; the exponentials are divided by their sum before the product with the values; and the
  last three operations are `1 / (1 + exp (-·))`. Read this way the reference's entry `(b, q, e)` is, term for term,
  the early-normalised row of attention over the scores `(b, q, ·)` and column `e` of the values.
-/
import proofs.«408459_j4329327034632_3_alg».proof.Proof.Gen.ReferenceIdeal.Read
import proofs.«408459_j4329327034632_3_alg».proof.Proof.AttnSpec
import Idealize.ShloMosaic.Lib.ValueIdx
import Idealize.ShloMosaic.Lib.IdealHost
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open scoped BigOperators

/-- The f32 pattern `0xFF800000` is `-∞`. -/
theorem ofBits_negInf_f32 : Ideal.ofBits .f32 0xFF800000#32 = (⊥ : EReal) := by simp [Ideal.ofBits, Ideal.ieee]

/-- Two indices of rank one, two or three with the same coordinates are equal. -/
local macro "idx1" : tactic =>
  `(tactic| exact funext fun a => Fin.ext (by match a with | ⟨0, _⟩ => rfl))
local macro "idx2" : tactic =>
  `(tactic| exact funext fun a => Fin.ext (by match a with | ⟨0, _⟩ => rfl | ⟨1, _⟩ => rfl))
local macro "idx3" : tactic =>
  `(tactic| exact funext fun a => Fin.ext (by match a with | ⟨0, _⟩ => rfl | ⟨1, _⟩ => rfl | ⟨2, _⟩ => rfl))

variable (x0 : (⟨S4x4096x256, .f32⟩ : BufTy).Contents (Elt Ideal)) (x1 : (⟨S256x256, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal))

/-- The queries: entry `(b, s, d)` of `x·W + bias` for the first weight and bias. -/
theorem v3_at (b : Fin 4) (s : Fin 4096) (d : Fin 256) :
    val_main_v3 (F := Ideal) x0 x1 x2 (ix3 b s d) = Cert.Attn.proj x0 x1 x2 b s d := by
  rw [val_main_v3_apply, val_main_v0_apply, val_main_v2_apply, val_main_v1_apply, Ideal.addf_def]
  unfold Cert.Attn.proj
  refine congrArg₂ (· + ·) (Finset.sum_congr rfl fun j _ => ?_) (congrArg x2 (by idx1))
  exact congrArg₂ (· * ·) (congrArg x0 (by idx3)) (congrArg x1 (by idx2))

/-- The keys: the same with the second weight and bias. -/
theorem v7_at (b : Fin 4) (s : Fin 4096) (d : Fin 256) :
    val_main_v7 (F := Ideal) x0 x3 x4 (ix3 b s d) = Cert.Attn.proj x0 x3 x4 b s d := by
  rw [val_main_v7_apply, val_main_v4_apply, val_main_v6_apply, val_main_v5_apply, Ideal.addf_def]
  unfold Cert.Attn.proj
  refine congrArg₂ (· + ·) (Finset.sum_congr rfl fun j _ => ?_) (congrArg x4 (by idx1))
  exact congrArg₂ (· * ·) (congrArg x0 (by idx3)) (congrArg x3 (by idx2))

/-- The values: the same with the third weight and bias. -/
theorem v11_at (b : Fin 4) (s : Fin 4096) (d : Fin 256) :
    val_main_v11 (F := Ideal) x0 x5 x6 (ix3 b s d) = Cert.Attn.proj x0 x5 x6 b s d := by
  rw [val_main_v11_apply, val_main_v8_apply, val_main_v10_apply, val_main_v9_apply, Ideal.addf_def]
  unfold Cert.Attn.proj
  refine congrArg₂ (· + ·) (Finset.sum_congr rfl fun j _ => ?_) (congrArg x6 (by idx1))
  exact congrArg₂ (· * ·) (congrArg x0 (by idx3)) (congrArg x5 (by idx2))

/-- A score: the inner product of query row `q` and key row `k`. -/
theorem v12_at (b : Fin 4) (q k : Fin 4096) :
    val_main_v12 (F := Ideal) x0 x1 x2 x3 x4 (ix3 b q k) = Cert.Attn.score x0 x1 x2 x3 x4 b q k := by
  rw [val_main_v12_apply]
  unfold Cert.Attn.score
  refine Finset.sum_congr rfl fun c _ => ?_
  exact congrArg₂ (· * ·) ((congrArg _ (by idx3)).trans (v3_at x0 x1 x2 b q c))
    ((congrArg _ (by idx3)).trans (v7_at x0 x3 x4 b k c))

/-- At the ideal values the maximum operation is `max`, so a fold of it is a fold of `max`. -/
theorem fold_maximumf_eq {ι : Type} (s : Finset ι) (f : ι → EReal) (c : EReal) :
    Finset.fold (FloatOps.maximumf (F := Ideal) (φ := .f32)) c f s = Finset.fold max c f s := rfl

/-- The row maximum: the fold of `max` from `-∞` over the scores of row `q`. -/
theorem v13_at (b : Fin 4) (q : Fin 4096) :
    val_main_v13 (F := Ideal) x0 x1 x2 x3 x4 (ix2 b q)
      = (Finset.univ : Finset (Fin 4096)).fold max ⊥ (fun k => Cert.Attn.score x0 x1 x2 x3 x4 b q k) := by
  unfold val_main_v13
  have h : S4x4096x4096.Reduces [2] S4x4096 := by decide
  refine (Host.reduce_eq_fold_single (FloatOps.maximumf (F := Ideal) (φ := .f32))
    (val_main_v12 (F := Ideal) x0 x1 x2 x3 x4) (val_main_cst (F := Ideal)) reducesTo_S4x4096x4096_S4x4096_d2 h h_S_
    (ix2 b q)).trans ?_
  have hf : (val_main_v12 (F := Ideal) x0 x1 x2 x3 x4 ∘ h.lift (ix2 b q))
      = fun k : Fin 4096 => Cert.Attn.score x0 x1 x2 x3 x4 b q k :=
    funext fun k => (congrArg (val_main_v12 (F := Ideal) x0 x1 x2 x3 x4) (by idx3)).trans
      (v12_at x0 x1 x2 x3 x4 b q k)
  have hb : val_main_cst (F := Ideal) (Shape.Idx.first h_S_) = (⊥ : EReal) := ofBits_negInf_f32
  rw [hb, hf]
  exact fold_maximumf_eq _ _ _

/-- The maximum the scores are shifted by: the row maximum, once more against `-∞`. -/
theorem v15_at (b : Fin 4) (q : Fin 4096) :
    val_main_v15 (F := Ideal) x0 x1 x2 x3 x4 (ix2 b q)
      = max ⊥ ((Finset.univ : Finset (Fin 4096)).fold max ⊥ (fun k => Cert.Attn.score x0 x1 x2 x3 x4 b q k)) := by
  rw [val_main_v15_apply, val_main_v14_apply, val_main_cst_0_apply, v13_at, Ideal.maximumf_def, Ideal.ofBits_def,
    ofBits_negInf_f32]

/-- The exponential of a shifted score. -/
theorem v19_at (b : Fin 4) (q k : Fin 4096) :
    val_main_v19 (F := Ideal) x0 x1 x2 x3 x4 (ix3 b q k)
      = Ideal.exp (Cert.Attn.score x0 x1 x2 x3 x4 b q k
          - max ⊥ ((Finset.univ : Finset (Fin 4096)).fold max ⊥ (fun k => Cert.Attn.score x0 x1 x2 x3 x4 b q k))) := by
  rw [val_main_v19_apply, val_main_v18_apply, val_main_v17_apply, val_main_v16_apply, v12_at,
    show idx_main_v16 (idx_main_v17 (ix3 b q k)) = ix2 b q by idx2, v15_at, Ideal.subf_def, Ideal.hostUnary_exp_def]

/-- The normaliser of row `q`: zero plus the sum of the exponentials. -/
theorem v20_at (b : Fin 4) (q : Fin 4096) :
    val_main_v20 (F := Ideal) x0 x1 x2 x3 x4 (ix2 b q)
      = 0 + ∑ k' : Fin 4096, Ideal.exp (Cert.Attn.score x0 x1 x2 x3 x4 b q k'
          - max ⊥ ((Finset.univ : Finset (Fin 4096)).fold max ⊥ (fun k => Cert.Attn.score x0 x1 x2 x3 x4 b q k))) := by
  rw [val_main_v20_apply, val_main_cst_1_apply, Ideal.ofBits_def, Ideal.ofBits_zero_f32]
  refine congrArg (0 + ·) (Finset.sum_congr rfl fun k _ => ?_)
  exact (congrArg _ (by idx3)).trans (v19_at x0 x1 x2 x3 x4 b q k)

/-- A weight: an exponential over the normaliser. -/
theorem v23_at (b : Fin 4) (q k : Fin 4096) :
    val_main_v23 (F := Ideal) x0 x1 x2 x3 x4 (ix3 b q k)
      = Ideal.div (Ideal.exp (Cert.Attn.score x0 x1 x2 x3 x4 b q k
          - max ⊥ ((Finset.univ : Finset (Fin 4096)).fold max ⊥ (fun k => Cert.Attn.score x0 x1 x2 x3 x4 b q k))))
        (0 + ∑ k' : Fin 4096, Ideal.exp (Cert.Attn.score x0 x1 x2 x3 x4 b q k'
          - max ⊥ ((Finset.univ : Finset (Fin 4096)).fold max ⊥ (fun k => Cert.Attn.score x0 x1 x2 x3 x4 b q k)))) := by
  rw [val_main_v23_apply, val_main_v22_apply, val_main_v21_apply, v19_at,
    show idx_main_v21 (idx_main_v22 (ix3 b q k)) = ix2 b q by idx2, v20_at, Ideal.hostDivf_def]

/-- The reference computes early-normalised attention. -/
theorem ref_eq :
    Cert.ReferenceIdeal.Read.val_main_v30 (F := Ideal) x0 x1 x2 x3 x4 x5 x6 = Cert.Attn.attnEarly x0 x1 x2 x3 x4 x5 x6 := by
  funext i
  obtain ⟨b, q, e, rfl⟩ : ∃ b q e, i = ix3 b q e := ⟨i 0, i 1, i 2, eq_ix3 i⟩
  rw [val_main_v30_apply, val_main_v29_apply, val_main_cst_3_apply, val_main_v28_apply, val_main_v27_apply,
    val_main_cst_2_apply, val_main_v26_apply, val_main_v25_apply, val_main_v24_apply]
  simp only [Ideal.hostDivf_def, Ideal.ofBits_def, Ideal.ofBits_one_f32, Ideal.addf_def, Ideal.hostUnary_exp_def,
    Ideal.hostNegf_def, Ideal.negf_def]
  unfold Cert.Attn.attnEarly Cert.Attn.rowEarly
  refine congrArg (fun z : EReal => Ideal.div 1 (1 + Ideal.exp (-z))) (Finset.sum_congr rfl fun k _ => ?_)
  exact congrArg₂ (· * ·) ((congrArg _ (by idx3)).trans (v23_at x0 x1 x2 x3 x4 b q k))
    ((congrArg _ (by idx3)).trans (v11_at x0 x5 x6 b k e))

end Cert.ReferenceIdeal.RefValue

end
-- ==== Proof.Finite.lean ====
/-
  Finite inputs are real numbers.

  The precondition asks, for each of the seven input arrays, that every entry's absolute value is below `+∞`, and
  joins the seven answers by `and`. On the extended reals the absolute value of `a` is `max a (-a)`, which is `+∞` at
  both infinities; so an entry that passes is neither of them, and an extended real that is neither infinity is a real.
-/
import proofs.«408459_j4329327034632_3_alg».proof.Proof.Gen.Pre_finite_inputs
import proofs.«408459_j4329327034632_3_alg».proof.Proof.SoftmaxRow
import Idealize.ShloMosaic.Lib.ReduceAll
import Idealize.ShloMosaic.Lib.ValueIdx

namespace Cert.Attn.Finite

open Idealize.ShloMosaic Cert.Pre_finite_inputs Cert.Pre_finite_inputs.Gen

/-- The scalar shape has one index. -/
instance : Subsingleton (⟨0, ![]⟩ : Shape).Idx := ⟨fun a b => funext fun d => d.elim0⟩

/-- The f32 pattern `0x7F800000` is `+∞`. -/
theorem ofBits_posInf_f32 : Ideal.ofBits .f32 0x7F800000#32 = (⊤ : EReal) := by simp [Ideal.ofBits, Ideal.ieee]

/-- An extended real whose absolute value is below `+∞` is a real. -/
theorem isR_of_abs_lt_top (a : EReal) (h : max a (-a) < ⊤) : IsR a := by
  induction a using EReal.rec with
  | bot => simp at h
  | coe r => exact ⟨r, rfl⟩
  | top => simp at h

/-- A one-bit word made from a Boolean is 1 only when the Boolean is true. -/
theorem ofBool_eq_one {b : Bool} (h : BitVec.ofBool b = 1#1) : b = true := by
  cases b
  · exact absurd h (by decide)
  · rfl

/-- One conjunct of the precondition: if `all (|x| < +∞)` is 1 then every entry of `x` is a real. -/
theorem isR_of_all {s : Shape} {axes : List (Fin s.rank)} (x : FVec Ideal s .f32)
    (bc : S_.BroadcastsInDim s (![] : Fin 0 → Fin s.rank)) (h' : s.ReducesTo axes S_) (hu : 0 < S_.numel)
    (e : Host.reduce IntOp.andi (cmpf .olt (Host.absf x) (broadcastInDim s ![] bc (constant S_ .f32 0x7F800000#32)))
      (constantI S_ 1 1#1) h' hu ValueIdx.ix0 = 1#1) (i : s.Idx) : IsR (x i) := by
  have e1 := Host.reduce_andi_all _ _ h' hu ValueIdx.ix0 e i
  have e2 : BitVec.ofBool (decide (max (x i) (-(x i)) < Ideal.ofBits .f32 0x7F800000#32)) = 1#1 := e1
  rw [ofBits_posInf_f32] at e2
  exact isR_of_abs_lt_top _ (of_decide_eq_true (ofBool_eq_one e2))

/-- The precondition makes every entry of every input a real. -/
theorem isR_of_pre (x0 : FVec Ideal Cert.Pre_finite_inputs.S4x4096x256 .f32) (x1 : FVec Ideal Cert.Pre_finite_inputs.S256x256 .f32) (x2 : FVec Ideal Cert.Pre_finite_inputs.S256 .f32) (x3 : FVec Ideal Cert.Pre_finite_inputs.S256x256 .f32) (x4 : FVec Ideal Cert.Pre_finite_inputs.S256 .f32) (x5 : FVec Ideal Cert.Pre_finite_inputs.S256x256 .f32) (x6 : FVec Ideal Cert.Pre_finite_inputs.S256 .f32)
    (h : Cert.Pre_finite_inputs.fn (F := Ideal) x0 x1 x2 x3 x4 x5 x6 = fun _ => 1#1) :
    (∀ i, Cert.Attn.IsR (x0 i)) ∧ (∀ i, Cert.Attn.IsR (x1 i)) ∧ (∀ i, Cert.Attn.IsR (x2 i)) ∧ (∀ i, Cert.Attn.IsR (x3 i)) ∧ (∀ i, Cert.Attn.IsR (x4 i)) ∧ (∀ i, Cert.Attn.IsR (x5 i)) ∧ (∀ i, Cert.Attn.IsR (x6 i)) := by
  have h0 := congrFun h ValueIdx.ix0
  dsimp only [Cert.Pre_finite_inputs.fn, Cert.Pre_finite_inputs.fn_part1] at h0
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨isR_of_all x0 _ _ _ e0, isR_of_all x1 _ _ _ e1, isR_of_all x2 _ _ _ e2, isR_of_all x3 _ _ _ e3,
    isR_of_all x4 _ _ _ e4, isR_of_all x5 _ _ _ e5, isR_of_all x6 _ _ _ e6⟩

end Cert.Attn.Finite
-- ==== Proof.lean ====
/-
  Single-head attention on [4, 4096, 256] with keys and values kept per batch, against softmax attention in jnp.

  The kernel walks a 4 × 16 grid: batch by batch, sixteen tiles of 256 query rows each. At a batch's first tile it
  computes the batch's keys and values (`x·Wk + bk`, `x·Wv + bv`) into two scratch arrays, which the other fifteen
  tiles reuse. Each tile forms its queries, the scores against all 4096 keys, subtracts each row's maximum,
  exponentiates, multiplies the unnormalised weights by the values and only then divides each row by its sum of weights;
  the logistic function closes it. The reference computes queries, keys and values for all batches at once, normalises
  the weights first (softmax) and then multiplies by the values; its logistic function is spelt `1 / (1 + exp (-·))`.

  On extended reals the changes of float format are the identity and every sum is exact, so the kernel's result array
  is late-normalised attention of the seven arguments (Final.lean, from the carried keys and values of Carried.lean and
  the entry-by-entry reading of PayAt.lean) and the reference's is early-normalised attention (RefValue.lean). Under
  the precondition every input entry is a real number (Finite.lean); then every score and value is real, each row's
  maximum is one of its scores, the weights are positive reals, and dividing the weighted sum or each weight by their
  positive sum is the same (SoftmaxRow.lean, AttnSpec.lean). Nothing was rewritten in the idealization, so that claim
  is empty; the word-level kernel and the idealized one run by their generated frames, the reference by its generated
  run.
-/
import proofs.«408459_j4329327034632_3_alg».proof.Defs
import proofs.«408459_j4329327034632_3_alg».proof.Proof.Gen.Kernel
import proofs.«408459_j4329327034632_3_alg».proof.Proof.Gen.Kernel.Skeleton
import proofs.«408459_j4329327034632_3_alg».proof.Proof.Gen.Kernel.Launch
import proofs.«408459_j4329327034632_3_alg».proof.Proof.Gen.Kernel.Points
import proofs.«408459_j4329327034632_3_alg».proof.Proof.Gen.Kernel.Frame
import proofs.«408459_j4329327034632_3_alg».proof.Proof.Gen.KernelIdeal
import proofs.«408459_j4329327034632_3_alg».proof.Proof.Gen.KernelIdeal.Skeleton
import proofs.«408459_j4329327034632_3_alg».proof.Proof.Gen.KernelIdeal.Launch
import proofs.«408459_j4329327034632_3_alg».proof.Proof.Gen.KernelIdeal.Points
import proofs.«408459_j4329327034632_3_alg».proof.Proof.Gen.KernelIdeal.Frame
import proofs.«408459_j4329327034632_3_alg».proof.Proof.Gen.ReferenceIdeal
import proofs.«408459_j4329327034632_3_alg».proof.Proof.Gen.KernelIdeal.Value
import proofs.«408459_j4329327034632_3_alg».proof.Proof.Gen.ReferenceIdeal.Run
import proofs.«408459_j4329327034632_3_alg».proof.Proof.Gen.ReferenceIdeal.Read
import proofs.«408459_j4329327034632_3_alg».proof.Proof.Gen.Pre_finite_inputs
import proofs.«408459_j4329327034632_3_alg».proof.Proof.Final
import proofs.«408459_j4329327034632_3_alg».proof.Proof.RefValue
import proofs.«408459_j4329327034632_3_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the ideal values the kernel's result array is late-normalised attention of its arguments and the reference's is
    early-normalised attention of arguments that agree; with finite inputs the two are one array. -/
theorem algebraic : Cert.algebraic_KernelIdeal_ReferenceIdeal := by
  intro m ρ m' ρ' hpre hagree
  refine ⟨fun c => Cert.KernelIdeal.Final.G m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  obtain ⟨r0, r1, r2, r3, r4, r5, r6⟩ := Cert.Attn.Finite.isR_of_pre _ _ _ _ _ _ _ (hpre c)
  rw [Cert.ReferenceIdeal.Read.val_main_v30_eq, Cert.ReferenceIdeal.RefValue.ref_eq, e0, e1, e2, e3, e4, e5, e6]
  exact (Cert.Attn.attnLate_eq_attnEarly r0 r1 r2 r3 r4 r5 r6).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
